-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S2000x256 .f32 .bf16
  ∧ IdealRules.truncf_extf.Statement Cert.KernelIdeal.S2000x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S200000 : Shape := ⟨1, ![200000]⟩
abbrev S2048x127 : Shape := ⟨2, ![2048, 127]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel

variable [Facts]

def fn {F : FTy → Type} [FloatOps F] (main_arg0 : FVec F S200000x256 .f32) (main_arg1 : FVec F S200000x256 .f32) (main_arg2 : IVec S200000 32) (main_arg3 : IVec S200000 32) (main_arg4 : IVec S2048x127 32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S200000x256 .f32 := Host.absf main_arg1
  let main_cst_0 : FVec F S_ .f32 := constant S_ .f32 0x7F800000#32
  let main_v5 : FVec F S200000x256 .f32 := broadcastInDim S200000x256 ![] bcast_S_S200000x256 main_cst_0
  let main_v6 : IVec S200000x256 1 := cmpf .olt main_v4 main_v5
  let main_c_1 : IVec S_ 1 := constantI S_ 1 1#1
  let main_v7 : IVec S_ 1 := (fun x v => Host.reduce IntOp.andi x v reducesTo_S200000x256_S_d0_1 h_S_) main_v6 main_c_1
  let main_v8 : IVec S_ 1 := andi main_v3 main_v7
  main_v8
-- ==== Kernel.lean ====
abbrev S200000x256 : Shape := ⟨2, ![200000, 256]⟩
abbrev S200000 : Shape := ⟨1, ![200000]⟩
abbrev S2048x127 : Shape := ⟨2, ![2048, 127]⟩
abbrev S200000x1 : Shape := ⟨2, ![200000, 1]⟩
abbrev S200000x2 : Shape := ⟨2, ![200000, 2]⟩
abbrev S2048x256 : Shape := ⟨2, ![2048, 256]⟩
abbrev S2000x256 : Shape := ⟨2, ![2000, 256]⟩
abbrev S2000x2 : Shape := ⟨2, ![2000, 2]⟩
abbrev S1024x256 : Shape := ⟨2, ![1024, 256]⟩
abbrev S2000x1024 : Shape := ⟨2, ![2000, 1024]⟩
abbrev S2000x1 : Shape := ⟨2, ![2000, 1]⟩
abbrev S_ : Shape := ⟨0, ![]⟩
abbrev S2048x127x1 : Shape := ⟨3, ![2048, 127, 1]⟩
abbrev S2048x127x256 : Shape := ⟨3, ![2048, 127, 256]⟩
abbrev S1x2048 : Shape := ⟨2, ![1, 2048]⟩
abbrev S128x256 : Shape := ⟨2, ![128, 256]⟩
abbrev S128x127x256 : Shape := ⟨3, ![128, 127, 256]⟩
abbrev S1x128 : Shape := ⟨2, ![1, 128]⟩
abbrev S128 : Shape := ⟨1, ![128]⟩
abbrev S128x1x256 : Shape := ⟨3, ![128, 1, 256]⟩
abbrev S128x127 : Shape := ⟨2, ![128, 127]⟩
abbrev S128x1 : Shape := ⟨2, ![128, 1]⟩

abbrev nBuf : Space → Nat
  | .hbm => 24
  | .vmem => 18
  | .smem => 0
  | _ => 0

abbrev bufTy : (tb : Table) → Fin (tcTables nBuf tb) → BufTy
  | .hbm, ⟨0, _⟩ => ⟨S200000x256, .f32⟩
  | .hbm, ⟨1, _⟩ => ⟨S200000x256, .f32⟩
  | .hbm, ⟨2, _⟩ => ⟨S200000, .i32⟩
  | .hbm, ⟨3, _⟩ => ⟨S200000, .i32⟩
  | .hbm, ⟨4, _⟩ => ⟨S2048x127, .i32⟩
  | .hbm, ⟨5, _⟩ => ⟨S200000x1, .i32⟩
  | .hbm, ⟨6, _⟩ => ⟨S200000x1, .i32⟩
  | .hbm, ⟨7, _⟩ => ⟨S200000x2, .i32⟩
  | .hbm, ⟨8, _⟩ => ⟨S2048x256, .f32⟩
  | .hbm, ⟨9, _⟩ => ⟨S2048x256, .f32⟩
  | .hbm, ⟨10, _⟩ => ⟨S_, .i32⟩
  | .hbm, ⟨11, _⟩ => ⟨S2048x127, .i32⟩
  | .hbm, ⟨12, _⟩ => ⟨S2048x127, .i1⟩
  | .hbm, ⟨13, _⟩ => ⟨S_, .i32⟩
  | .hbm, ⟨14, _⟩ => ⟨S2048x127, .i32⟩
  | .hbm, ⟨15, _⟩ => ⟨S2048x127, .i32⟩
  | .hbm, ⟨16, _⟩ => ⟨S2048x127, .i32⟩
  | .hbm, ⟨17, _⟩ => ⟨S2048x127x1, .i32⟩
  | .hbm, ⟨18, _⟩ => ⟨S2048x127x256, .f32⟩
  | .hbm, ⟨19, _⟩ => ⟨S1x2048, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S2000x2, .i32⟩
  | .local _ .vmem, ⟨5, _⟩ => ⟨S2000x2, .i32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x127x256, .f32⟩
  | .local _ .vmem, ⟨15, _⟩ => ⟨S128x127x256, .f32⟩
  | .local _ .vmem, ⟨16, _⟩ => ⟨S1x128, .f32⟩
  | .local _ .vmem, ⟨17, _⟩ => ⟨S1x128, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨2, ![2, 100], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2000x2 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S128x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x127x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S200000_S200000x1 : S200000.ShapeCasts S200000x1
  concatenates_S200000x1_S200000x1_S200000x2_d1 : Shape.Concatenates [S200000x1, S200000x1] S200000x2 1
  inb_S1024x256_S1024x256_0_0 : ∀ a, (![0, 0] : Fin 2 → Nat) a + S1024x256.size a ≤ S1024x256.size a
  h_S1024x256 : 0 < S1024x256.numel
  iota_S2000x1024_d1_w32 : S2000x1024.Iotas .tc 32 [1]
  inb_S2000x2_S2000x2_0_0 : ∀ a, (![0, 0] : Fin 2 → Nat) a + S2000x2.size a ≤ S2000x2.size a
  h_S2000x2 : 0 < S2000x2.numel
  shapeCasts_S2000x2_S2000x2 : S2000x2.ShapeCasts S2000x2
  slices_S2000x2_o0_0_S2000x1 : S2000x2.Slices ![0, 0] S2000x1
  slices_S2000x2_o0_1_S2000x1 : S2000x2.Slices ![0, 1] S2000x1
  broadcasts_S2000x1_S2000x1024 : S2000x1.Broadcasts S2000x1024
  natLt_1_32 : 1 < 32
  bitsLt_bf16_f32 : FTy.bits .bf16 < FTy.bits .f32
  inb_S2000x256_S2000x256_0_0 : ∀ a, (![0, 0] : Fin 2 → Nat) a + S2000x256.size a ≤ S2000x256.size a
  h_S2000x256 : 0 < S2000x256.numel
  shapeCasts_S1024x256_S1024x256 : S1024x256.ShapeCasts S1024x256
  bcast_S_S2048x127 : S_.BroadcastsInDim S2048x127 (![] : Fin 0 → Fin S2048x127.rank)
  bcast_S2048x127_S2048x127x1_0_1 : S2048x127.BroadcastsInDim S2048x127x1 (![0, 1] : Fin 2 → Fin S2048x127x1.rank)
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S128x127x256_S128x127x256_0_0_0 : ∀ a, (![0, 0, 0] : Fin 3 → Nat) a + S128x127x256.size a ≤ S128x127x256.size a
  h_S128x127x256 : 0 < S128x127x256.numel
  shapeCasts_S128x127x256_S128x127x256 : S128x127x256.ShapeCasts S128x127x256
  reduces_S128x256_S128 : S128x256.Reduces [1] S128
  shapeCasts_S128x256_S128x1x256 : S128x256.ShapeCasts S128x1x256
  broadcasts_S128x1x256_S128x127x256 : S128x1x256.Broadcasts S128x127x256
  reduces_S128x127x256_S128x127 : S128x127x256.Reduces [2] S128x127
  shapeCasts_S128_S128x1 : S128.ShapeCasts S128x1
  broadcasts_S128x1_S128x127 : S128x1.Broadcasts S128x127
  reduces_S128x127_S128 : S128x127.Reduces [1] S128
  shapeCasts_S128_S1x128 : S128.ShapeCasts S1x128
  inb_S1x128_S1x128_0_0 : ∀ a, (![0, 0] : Fin 2 → Nat) a + S1x128.size a ≤ S1x128.size a
  h_S1x128 : 0 < S1x128.numel
  reducesTo_S1x2048_S_d0_1 : S1x2048.ReducesTo [0, 1] S_
  h_S_ : 0 < S_.numel
  dot_S2000x1024_S2000x256_S1024x256_0_0_1_1_n_n_wf : DotDims.WF S2000x1024 S2000x256 S1024x256 [0] [0] [1] [1] [] []
  gather_S2048x256_S2048x127x1_S2048x127x256_2_0_n_n_0_2_1256_wf : GatherDims.WF S2048x256 S2048x127x1 S2048x127x256 [2] [0] [] [0] [] 2 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S200000x256.size a
  hwx0_0 : ∀ i : grid0.Coords, EltTy.bits .f32 = 32 ∨ (Rect.block (s := S200000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S200000x256.size a
  hwx0_1 : ∀ i : grid0.Coords, EltTy.bits .f32 = 32 ∨ (Rect.block (s := S200000x256) S2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x2.size a ≤ S200000x2.size a
  hwx0_2 : ∀ i : grid0.Coords, EltTy.bits .i32 = 32 ∨ (Rect.block (s := S200000x2) S2000x2.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S2048x256.size a
  hwx0_3 : ∀ i : grid0.Coords, EltTy.bits .f32 = 32 ∨ (Rect.block (s := S2048x256) S1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S2048x256.size a
  hwx0_4 : ∀ i : grid0.Coords, EltTy.bits .f32 = 32 ∨ (Rect.block (s := S2048x256) S1024x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x256.size a ≤ S2048x256.size a
  hwx1_0 : ∀ i : grid1.Coords, EltTy.bits .f32 = 32 ∨ (Rect.block (s := S2048x256) S128x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S2048x256.size a
  hwx1_1 : ∀ i : grid1.Coords, EltTy.bits .f32 = 32 ∨ (Rect.block (s := S2048x256) S128x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x127x256.size a ≤ S2048x127x256.size a
  hwx1_2 : ∀ i : grid1.Coords, EltTy.bits .f32 = 32 ∨ (Rect.block (s := S2048x127x256) S128x127x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x2048.size a
  hwx1_3 : ∀ i : grid1.Coords, EltTy.bits .f32 = 32 ∨ (Rect.block (s := S1x2048) S1x128.size (cc1_transform_3 i) (hinb1_3 i)).WholeWords (EltTy.packing .f32)

variable [Facts₀]

def dot_S2000x1024_S2000x256_S1024x256_0_0_1_1_n_n : DotDims S2000x1024 S2000x256 S1024x256 where
  lhsContracting := [0]
  rhsContracting := [0]
  lhsNonContracting := [1]
  rhsNonContracting := [1]
  lhsBatch := []
  rhsBatch := []
  wf := dot_S2000x1024_S2000x256_S1024x256_0_0_1_1_n_n_wf
def gather_S2048x256_S2048x127x1_S2048x127x256_2_0_n_n_0_2_1256 : GatherDims S2048x256 S2048x127x1 S2048x127x256 where
  offsetDims := [2]
  collapsedSliceDims := [0]
  operandBatchingDims := []
  startIndicesBatchingDims := []
  startIndexMap := [0]
  indexVectorDim := 2
  sliceSizes := ![1, 256]
  wf := gather_S2048x256_S2048x127x1_S2048x127x256_2_0_n_n_0_2_1256_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2000x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1024x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v3_0) S128x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S128x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S128x127x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S200000x256 : Shape := ⟨2, ![200000, 256]⟩
abbrev S200000 : Shape := ⟨1, ![200000]⟩
abbrev S2048x127 : Shape := ⟨2, ![2048, 127]⟩
abbrev S_ : Shape := ⟨0, ![]⟩
abbrev S2048x256 : Shape := ⟨2, ![2048, 256]⟩
abbrev S200000x1 : Shape := ⟨2, ![200000, 1]⟩
abbrev S2048x1x256 : Shape := ⟨3, ![2048, 1, 256]⟩
abbrev S2048x127x1 : Shape := ⟨3, ![2048, 127, 1]⟩
abbrev S2048x127x256 : Shape := ⟨3, ![2048, 127, 256]⟩
abbrev S2048x128x256 : Shape := ⟨3, ![2048, 128, 256]⟩
abbrev S2048x128 : Shape := ⟨2, ![2048, 128]⟩
abbrev S2048 : Shape := ⟨1, ![2048]⟩
abbrev S2048x1 : Shape := ⟨2, ![2048, 1]⟩

abbrev nBuf : Space → Nat
  | .hbm => 63
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S200000x256, .f32⟩
  | .hbm, ⟨2, _⟩ => ⟨S200000, .i32⟩
  | .hbm, ⟨3, _⟩ => ⟨S200000, .i32⟩
  | .hbm, ⟨4, _⟩ => ⟨S2048x127, .i32⟩
  | .hbm, ⟨5, _⟩ => ⟨S_, .f32⟩
  | .hbm, ⟨6, _⟩ => ⟨S2048x256, .f32⟩
  | .hbm, ⟨7, _⟩ => ⟨S200000x1, .i32⟩
  | .hbm, ⟨8, _⟩ => ⟨S2048x256, .f32⟩
  | .hbm, ⟨9, _⟩ => ⟨S_, .f32⟩
  | .hbm, ⟨10, _⟩ => ⟨S2048x256, .f32⟩
  | .hbm, ⟨11, _⟩ => ⟨S200000x1, .i32⟩
  | .hbm, ⟨12, _⟩ => ⟨S2048x256, .f32⟩
  | .hbm, ⟨13, _⟩ => ⟨S2048x1x256, .f32⟩
  | .hbm, ⟨14, _⟩ => ⟨S_, .i32⟩
  | .hbm, ⟨15, _⟩ => ⟨S2048x127, .i32⟩
  | .hbm, ⟨16, _⟩ => ⟨S2048x127, .i1⟩
  | .hbm, ⟨17, _⟩ => ⟨S_, .i32⟩
  | .hbm, ⟨18, _⟩ => ⟨S2048x127, .i32⟩
  | .hbm, ⟨19, _⟩ => ⟨S2048x127, .i32⟩
  | .hbm, ⟨20, _⟩ => ⟨S2048x127, .i32⟩
  | .hbm, ⟨21, _⟩ => ⟨S2048x127x1, .i32⟩
  | .hbm, ⟨22, _⟩ => ⟨S2048x127x256, .f32⟩
  | .hbm, ⟨23, _⟩ => ⟨S2048x128x256, .f32⟩
  | .hbm, ⟨24, _⟩ => ⟨S2048x1x256, .f32⟩
  | .hbm, ⟨25, _⟩ => ⟨S2048x128x256, .f32⟩
  | .hbm, ⟨26, _⟩ => ⟨S2048x128x256, .f32⟩
  | .hbm, ⟨27, _⟩ => ⟨S_, .f32⟩
  | .hbm, ⟨28, _⟩ => ⟨S2048x128, .f32⟩
  | .hbm, ⟨29, _⟩ => ⟨S2048x256, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S_, .f32⟩
  | .hbm, ⟨34, _⟩ => ⟨S2048, .f32⟩
  | .hbm, ⟨35, _⟩ => ⟨S2048, .f32⟩
  | .hbm, ⟨36, _⟩ => ⟨S2048x1, .f32⟩
  | .hbm, ⟨37, _⟩ => ⟨S2048x128x256, .f32⟩
  | .hbm, ⟨38, _⟩ => ⟨S_, .f32⟩
  | .hbm, ⟨39, _⟩ => ⟨S2048x128, .f32⟩
  | .hbm, ⟨40, _⟩ => ⟨S2048x128, .f32⟩
  | .hbm, ⟨41, _⟩ => ⟨S_, .f32⟩
  | .hbm, ⟨42, _⟩ => ⟨S2048x128, .f32⟩
  | .hbm, ⟨43, _⟩ => ⟨S2048x128, .f32⟩
  | .hbm, ⟨44, _⟩ => ⟨S2048x128, .f32⟩
  | .hbm, ⟨45, _⟩ => ⟨S2048x128, .f32⟩
  | .hbm, ⟨46, _⟩ => ⟨S2048x128, .f32⟩
  | .hbm, ⟨47, _⟩ => ⟨S2048x128, .f32⟩
  | .hbm, ⟨48, _⟩ => ⟨S_, .f32⟩
  | .hbm, ⟨49, _⟩ => ⟨S2048x128, .f32⟩
  | .hbm, ⟨50, _⟩ => ⟨S2048x128, .f32⟩
  | .hbm, ⟨51, _⟩ => ⟨S2048x1, .f32⟩
  | .hbm, ⟨52, _⟩ => ⟨S2048, .f32⟩
  | .hbm, ⟨53, _⟩ => ⟨S2048x127, .f32⟩
  | .hbm, ⟨54, _⟩ => ⟨S_, .f32⟩
  | .hbm, ⟨55, _⟩ => ⟨S2048, .f32⟩
  | .hbm, ⟨56, _⟩ => ⟨S2048, .f32⟩
  | .hbm, ⟨57, _⟩ => ⟨S2048, .f32⟩
  | .hbm, ⟨58, _⟩ => ⟨S2048, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_call0_v0 : Ref sig .tc := ⟨.hbm, 29, rfl⟩
abbrev main_call0_cst : Ref sig .tc := ⟨.hbm, 30, rfl⟩
abbrev main_call0_v1 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call1_v0 : Ref sig .tc := ⟨.hbm, 37, rfl⟩
abbrev main_call1_cst : Ref sig .tc := ⟨.hbm, 38, rfl⟩
abbrev main_call1_v1 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩

abbrev nD : Nat := 1
abbrev τ : Topo := Topo.v7x

variable {F : FTy → Type} [FloatOps F]

class Facts₀ : Prop where
  bcast_S_S2048x256 : S_.BroadcastsInDim S2048x256 (![] : Fin 0 → Fin S2048x256.rank)
  bcast_S200000_S200000x1_0 : S200000.BroadcastsInDim S200000x1 (![0] : Fin 1 → Fin S200000x1.rank)
  bcast_S2048x256_S2048x1x256_0_2 : S2048x256.BroadcastsInDim S2048x1x256 (![0, 2] : Fin 2 → Fin S2048x1x256.rank)
  bcast_S_S2048x127 : S_.BroadcastsInDim S2048x127 (![] : Fin 0 → Fin S2048x127.rank)
  bcast_S2048x127_S2048x127x1_0_1 : S2048x127.BroadcastsInDim S2048x127x1 (![0, 1] : Fin 2 → Fin S2048x127x1.rank)
  concatenates_S2048x1x256_S2048x127x256_S2048x128x256_d1 : Shape.Concatenates [S2048x1x256, S2048x127x256] S2048x128x256 1
  bcast_S2048x1x256_S2048x128x256_0_1_2 : S2048x1x256.BroadcastsInDim S2048x128x256 (![0, 1, 2] : Fin 3 → Fin S2048x128x256.rank)
  reducesTo_S2048x128x256_S2048x128_d2 : S2048x128x256.ReducesTo [2] S2048x128
  h_S_ : 0 < S_.numel
  reducesTo_S2048x256_S2048_d1 : S2048x256.ReducesTo [1] S2048
  bcast_S_S2048 : S_.BroadcastsInDim S2048 (![] : Fin 0 → Fin S2048.rank)
  bcast_S2048_S2048x1_0 : S2048.BroadcastsInDim S2048x1 (![0] : Fin 1 → Fin S2048x1.rank)
  bcast_S_S2048x128 : S_.BroadcastsInDim S2048x128 (![] : Fin 0 → Fin S2048x128.rank)
  bcast_S2048x1_S2048x128_0_1 : S2048x1.BroadcastsInDim S2048x128 (![0, 1] : Fin 2 → Fin S2048x128.rank)
  slices_S2048x128_S2048x1_0_0 : S2048x128.Slices ![0, 0] S2048x1
  shapeCasts_S2048x1_S2048 : S2048x1.ShapeCasts S2048
  slices_S2048x128_S2048x127_0_1 : S2048x128.Slices ![0, 1] S2048x127
  reducesTo_S2048x127_S2048_d1 : S2048x127.ReducesTo [1] S2048
  reducesTo_S2048_S_d0 : S2048.ReducesTo [0] S_
  scatter_S2048x256_S200000x1_S200000x256_1_0_0_1_wf : ScatterDims.WF S2048x256 S200000x1 S200000x256 [1] [0] [0] 1
  gather_S2048x256_S2048x127x1_S2048x127x256_2_0_n_n_0_2_1256_wf : GatherDims.WF S2048x256 S2048x127x1 S2048x127x256 [2] [0] [] [0] [] 2 ![1, 256]

variable [Facts₀]

def scatter_S2048x256_S200000x1_S200000x256_1_0_0_1 : ScatterDims S2048x256 S200000x1 S200000x256 where
  updateWindowDims := [1]
  insertedWindowDims := [0]
  scatterDimsToOperandDims := [0]
  indexVectorDim := 1
  wf := scatter_S2048x256_S200000x1_S200000x256_1_0_0_1_wf
def gather_S2048x256_S2048x127x1_S2048x127x256_2_0_n_n_0_2_1256 : GatherDims S2048x256 S2048x127x1 S2048x127x256 where
  offsetDims := [2]
  collapsedSliceDims := [0]
  operandBatchingDims := []
  startIndicesBatchingDims := []
  startIndexMap := [0]
  indexVectorDim := 2
  sliceSizes := ![1, 256]
  wf := gather_S2048x256_S2048x127x1_S2048x127x256_2_0_n_n_0_2_1256_wf

class Facts : Prop extends Facts₀ where

variable [Facts]
-- ==== Proof.Spec.lean ====
/-
  The mathematics both programs compute, stated once over the extended reals.

  A batch of 200000 nodes, each with a 256-vector and the index word of the graph it belongs to, is reduced
  to 2048 per-graph vectors by summing the nodes of each graph (`seg`): a node whose index word is not one
  of 0 … 2047 belongs to no graph.  From the per-graph vectors `S` (from the first node array) and `P`
  (from the second), and 127 further rows `N i s` per graph, the loss of graph `i` is
      − log ( (exp (cos (S i, P i)) / T) / ∑ₛ exp (cos (S i, N i s)) / T ),
  where `cos (a, b) = ⟨a, b⟩ / (max ‖a‖ ε · max ‖b‖ ε)`, and the result is the mean over the 2048 graphs.
  The constants are the binary32 words the programs share: ε = 0x322BCC77, T = 0x41200000 (ten),
  2048 = 0x45000000.
-/
import Idealize.ShloMosaic.PureOps.Ideal
import Idealize.ShloMosaic.Lib.ValueIdx

noncomputable section

namespace Cert.Spec

open Idealize.ShloMosaic Idealize.ShloMosaic.ValueIdx

/-- The node arrays, the per-graph arrays and the array of the 127 comparison rows per graph. -/
abbrev Nodes : Shape := ⟨2, ![200000, 256]⟩
abbrev Segs : Shape := ⟨2, ![2048, 256]⟩
abbrev Negs : Shape := ⟨3, ![2048, 127, 256]⟩

/-- Entry `(g, d)` of the per-graph sums: the sum over the nodes whose index word is `g` of coordinate `d`. -/
def seg (x : Nodes.Idx → EReal) (w : Fin 200000 → BitVec 32) (g : Fin 2048) (d : Fin 256) : EReal :=
  ∑ n : Fin 200000, if w n = BitVec.ofNat 32 g.val then x (ix2 n d) else 0

/-- The per-graph sums as an array. -/
def segArr (x : Nodes.Idx → EReal) (w : Fin 200000 → BitVec 32) : Segs.Idx → EReal :=
  fun j => seg x w (j 0) (j 1)

/-- A tile of 2000 nodes, its two columns of index words, and one half (1024 graphs) of the per-graph sums. -/
abbrev Tile : Shape := ⟨2, ![2000, 256]⟩
abbrev TileIdx : Shape := ⟨2, ![2000, 2]⟩
abbrev Half : Shape := ⟨2, ![1024, 256]⟩

/-- The indicator weight: one when the index word `w` is the number `k`, zero otherwise. -/
def hotw (w : BitVec 32) (k : ℕ) : EReal := if w = BitVec.ofNat 32 k then 1 else 0

/-- One tile's update of the running sums of half `h` (graphs `1024 h … 1024 h + 1023`): to row `r` it adds the
    indicator-weighted sum of the tile's rows, and then the same weighted sum of each row's difference from itself
    (the remainder term of the two-term splitting of the rows, which at exact arithmetic is that difference). -/
def step (acc : Half.Idx → EReal) (x : Tile.Idx → EReal) (idx : TileIdx.Idx → BitVec 32) (col : Fin 2) (h : ℕ) :
    Half.Idx → EReal :=
  fun j => (acc j + ∑ n : Fin 2000, hotw (idx (ix2 n col)) (1024 * h + (j 0).val) * x (ix2 n (j 1)))
    + ∑ n : Fin 2000, hotw (idx (ix2 n col)) (1024 * h + (j 0).val) * (x (ix2 n (j 1)) - x (ix2 n (j 1)))

/-- The shared constants. -/
def eps : EReal := Ideal.ofBits .f32 0x322BCC77#32
def temp : EReal := Ideal.ofBits .f32 0x41200000#32
def count : EReal := Ideal.ofBits .f32 0x45000000#32

/-- The Euclidean norm of a 256-vector, kept away from zero by `eps`. -/
def norm (a : Fin 256 → EReal) : EReal := max (Ideal.sqrt (∑ d : Fin 256, a d * a d)) eps

/-- The cosine similarity of two 256-vectors. -/
def sim (a b : Fin 256 → EReal) : EReal := Ideal.div (∑ d : Fin 256, a d * b d) (norm a * norm b)

/-- The exponential weight of a similarity. -/
def wexp (a b : Fin 256 → EReal) : EReal := Ideal.div (Ideal.exp (sim a b)) temp

/-- The loss of graph `i`. -/
def rowLoss (S P : Segs.Idx → EReal) (N : Negs.Idx → EReal) (i : Fin 2048) : EReal :=
  -Ideal.log (Ideal.div (wexp (fun d => S (ix2 i d)) (fun d => P (ix2 i d)))
    (∑ s : Fin 127, wexp (fun d => S (ix2 i d)) (fun d => N (ix3 i s d))))

/-- The mean loss. -/
def loss (S P : Segs.Idx → EReal) (N : Negs.Idx → EReal) : EReal :=
  Ideal.div (∑ i : Fin 2048, rowLoss S P N i) count

end Cert.Spec

end
-- ==== Proof.Finite.lean ====
/-
  What the precondition gives: every entry of the two node arrays is a real number.  The precondition says that
  the absolute value of every entry is below +∞ (a conjunction of two `all`s); an extended real whose absolute
  value is below +∞ is neither infinity.
-/
import proofs.«406492_j75496935129282_4_alg».proof.Pre_finite_inputs
import proofs.«406492_j75496935129282_4_alg».proof.Proof.Gen.Pre_finite_inputs
import Idealize.ShloMosaic.Lib.ReduceAll
import Idealize.ShloMosaic.PureOps.Ideal
import Idealize.ShloMosaic.Lib.ValueIdx

noncomputable section

namespace Cert.Proof.Finite

open Idealize.ShloMosaic Idealize.ShloMosaic.ValueIdx Cert.Pre_finite_inputs Cert.Pre_finite_inputs.Facts

instance : Subsingleton S_.Idx := ⟨fun a b => funext fun d => d.elim0⟩

/-- An extended real whose absolute value `max x (-x)` is strictly below +∞ is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- Under the precondition both node arrays hold real numbers. -/
theorem reals_of_pre (a0 a1 : FVec Ideal S200000x256 .f32) (a2 a3 : IVec S200000 32) (a4 : IVec S2048x127 32)
    (h : Cert.Pre_finite_inputs.fn (F := Ideal) a0 a1 a2 a3 a4 = fun _ => 1#1) :
    (∃ xr : S200000x256.Idx → ℝ, (a0 : S200000x256.Idx → EReal) = fun i => ((xr i : ℝ) : EReal))
    ∧ (∃ xr : S200000x256.Idx → ℝ, (a1 : S200000x256.Idx → EReal) = fun i => ((xr i : ℝ) : EReal)) := by
  have h0 := congrFun h ix0
  dsimp only [Cert.Pre_finite_inputs.fn] at h0
  obtain ⟨h1, h2⟩ := IntOp.andi_eq_one.mp h0
  have e1 := Host.reduce_andi_all _ _ _ _ _ h1
  have e2 := Host.reduce_andi_all _ _ _ _ _ h2
  constructor
  · have : ∀ i, ∃ r : ℝ, a0 i = (r : EReal) := fun i => real_of_abs_lt (a0 i) (e1 i)
    choose xr hxr using this
    exact ⟨xr, funext hxr⟩
  · have : ∀ i, ∃ r : ℝ, a1 i = (r : EReal) := fun i => real_of_abs_lt (a1 i) (e2 i)
    choose xr hxr using this
    exact ⟨xr, funext hxr⟩

end Cert.Proof.Finite

end
-- ==== Proof.SegBody.lean ====
/-
  What one grid point of the segment-sum region leaves in its two output buffers, as values: the tile step of the
  specification applied to what the buffer held (zero at the first tile of a half).
-/
import proofs.«406492_j75496935129282_4_alg».proof.Proof.Gen.KernelIdeal.Frame
import proofs.«406492_j75496935129282_4_alg».proof.Proof.Spec
import Idealize.ShloMosaic.Lib.Pipeline.Value
import Idealize.ShloMosaic.PureOps.Ideal.Laws

noncomputable section

namespace Cert.KernelIdeal.SegBody

open Cert.KernelIdeal Cert.KernelIdeal.Gen
open Idealize.ShloMosaic Idealize.ShloMosaic.TcCoe Idealize.ShloMosaic.ValueIdx Idealize.SL.Sem
open Idealize.ShloMosaic.Pipeline (Dat)

/-- The zero offsets of a whole-buffer access. -/
private theorem hz : (![0, 0] : Fin 2 → Nat) = fun _ => 0 := funext fun a => by fin_cases a <;> rfl

/-- After a later tile, output 3 holds the second accumulation over the first, over what the buffer held: each store
    covers the whole buffer and each load reads back the store before it. -/
private theorem piece_B_3 (c : Dev nD) (i : grid0.Coords) (a2 : Memref sig .tc .vmem S2000x256 .f32) (h2 : a2.IsWhole)
    (a3 : Memref sig .tc .vmem S2000x256 .f32) (h3 : a3.IsWhole) (a4 : Memref sig .tc .vmem S2000x2 .i32) (h4 : a4.IsWhole)
    (a5 : Memref sig .tc .vmem S1024x256 .f32) (h5 : a5.IsWhole) (a6 : Memref sig .tc .vmem S1024x256 .f32) (h6 : a6.IsWhole)
    (hc : ¬cond0_0 i) (x0 x1 : Vec Ideal S2000x256 .f32) (x2 : Vec Ideal S2000x2 .i32) (xo3 xo4 : Vec Ideal S1024x256 .f32) :
    out0_B_3 (F := Ideal) c i a2 h2 a3 h3 a4 h4 a5 h5 a6 h6 hc x0 x1 x2 xo3 xo4 = k0_pay9 i x2 x0 (k0_pay8 i x2 x0 xo3) := by
  unfold out0_B_3
  rw [View.read_writes_eq_canon _ _ _ (cover0_B_3 c i a2 h2 a3 h3 a4 h4 a5 h5 a6 h6 hc x0 x1 x2 xo3 xo4)]
  unfold kernelRun0_B
  dsimp only
  sl_unfold_words
  rw [View.canon_cons_unit_zero (S := S1024x256) hz, View.readCov_unit_zero (S := S1024x256) _ hz]
  simp only [View.readAt_eq_ld, h2.read_unread, h3.read_unread, h4.read_unread, h5.read_unread, h6.read_unread,
    View.ld_unit_zero (S := S1024x256) hz, View.ld_unit_zero (S := S2000x256) hz, View.ld_unit_zero (S := S2000x2) hz]

/-- The same for output 4, whose weight block is built from the second column of index words. -/
private theorem piece_B_4 (c : Dev nD) (i : grid0.Coords) (a2 : Memref sig .tc .vmem S2000x256 .f32) (h2 : a2.IsWhole)
    (a3 : Memref sig .tc .vmem S2000x256 .f32) (h3 : a3.IsWhole) (a4 : Memref sig .tc .vmem S2000x2 .i32) (h4 : a4.IsWhole)
    (a5 : Memref sig .tc .vmem S1024x256 .f32) (h5 : a5.IsWhole) (a6 : Memref sig .tc .vmem S1024x256 .f32) (h6 : a6.IsWhole)
    (hc : ¬cond0_0 i) (x0 x1 : Vec Ideal S2000x256 .f32) (x2 : Vec Ideal S2000x2 .i32) (xo3 xo4 : Vec Ideal S1024x256 .f32) :
    out0_B_4 (F := Ideal) c i a2 h2 a3 h3 a4 h4 a5 h5 a6 h6 hc x0 x1 x2 xo3 xo4 = k0_pay2 (k0_pay10 i x2) x1 (k0_pay1 (k0_pay10 i x2) x1 xo4) := by
  unfold out0_B_4
  rw [View.read_writes_eq_canon _ _ _ (cover0_B_4 c i a2 h2 a3 h3 a4 h4 a5 h5 a6 h6 hc x0 x1 x2 xo3 xo4)]
  unfold kernelRun0_B
  dsimp only
  sl_unfold_words
  rw [View.canon_cons_unit_zero (S := S1024x256) hz, View.readCov_unit_zero (S := S1024x256) _ hz]
  simp only [View.readAt_eq_ld, h2.read_unread, h3.read_unread, h4.read_unread, h5.read_unread, h6.read_unread,
    View.ld_unit_zero (S := S1024x256) hz, View.ld_unit_zero (S := S2000x256) hz, View.ld_unit_zero (S := S2000x2) hz]

/-- After the first tile of a half, output 3 holds the two accumulations over the zero block stored first. -/
private theorem piece_A_3 (c : Dev nD) (i : grid0.Coords) (a2 : Memref sig .tc .vmem S2000x256 .f32) (h2 : a2.IsWhole)
    (a3 : Memref sig .tc .vmem S2000x256 .f32) (h3 : a3.IsWhole) (a4 : Memref sig .tc .vmem S2000x2 .i32) (h4 : a4.IsWhole)
    (a5 : Memref sig .tc .vmem S1024x256 .f32) (h5 : a5.IsWhole) (a6 : Memref sig .tc .vmem S1024x256 .f32) (h6 : a6.IsWhole)
    (hc : cond0_0 i) (x0 x1 : Vec Ideal S2000x256 .f32) (x2 : Vec Ideal S2000x2 .i32) :
    out0_A_3 (F := Ideal) c i a2 h2 a3 h3 a4 h4 a5 h5 a6 h6 hc x0 x1 x2 = k0_pay9 i x2 x0 (k0_pay8 i x2 x0 (k0_pay3 (F := Ideal))) := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_cons_unit_zero (S := S1024x256) hz, View.readCov_cons_toLoadRect, View.readCov_unit_zero (S := S1024x256) _ hz]
  simp only [View.readAt_eq_ld, h2.read_unread, h3.read_unread, h4.read_unread,
    View.ld_unit_zero (S := S2000x256) hz, View.ld_unit_zero (S := S2000x2) hz]

/-- The same for output 4. -/
private theorem piece_A_4 (c : Dev nD) (i : grid0.Coords) (a2 : Memref sig .tc .vmem S2000x256 .f32) (h2 : a2.IsWhole)
    (a3 : Memref sig .tc .vmem S2000x256 .f32) (h3 : a3.IsWhole) (a4 : Memref sig .tc .vmem S2000x2 .i32) (h4 : a4.IsWhole)
    (a5 : Memref sig .tc .vmem S1024x256 .f32) (h5 : a5.IsWhole) (a6 : Memref sig .tc .vmem S1024x256 .f32) (h6 : a6.IsWhole)
    (hc : cond0_0 i) (x0 x1 : Vec Ideal S2000x256 .f32) (x2 : Vec Ideal S2000x2 .i32) :
    out0_A_4 (F := Ideal) c i a2 h2 a3 h3 a4 h4 a5 h5 a6 h6 hc x0 x1 x2 = k0_pay2 (k0_pay10 i x2) x1 (k0_pay1 (k0_pay10 i x2) x1 (k0_pay4 (F := Ideal))) := by
  unfold out0_A_4
  rw [View.read_writes_eq_canon _ _ _ (cover0_A_4 c i a2 h2 a3 h3 a4 h4 a5 h5 a6 h6 hc x0 x1 x2)]
  unfold kernelRun0_A
  dsimp only
  sl_unfold_words
  rw [View.canon_cons_unit_zero (S := S1024x256) hz, View.readCov_cons_toLoadRect, View.readCov_unit_zero (S := S1024x256) _ hz]
  simp only [View.readAt_eq_ld, h2.read_unread, h3.read_unread, h4.read_unread,
    View.ld_unit_zero (S := S2000x256) hz, View.ld_unit_zero (S := S2000x2) hz]

/-- Row `r` of half `h` is graph `1024 h + r`: the sum of the two 32-bit words is the word of the sum. -/
private theorem word_eq (h r : ℕ) : BitVec.ofNat 32 r + BitVec.ofNat 32 h * 1024#32 = BitVec.ofNat 32 (1024 * h + r) := by
  apply BitVec.eq_of_toNat_eq
  simp only [BitVec.toNat_add, BitVec.toNat_mul, BitVec.toNat_ofNat]
  omega

/-- A comparison of two words, widened and converted, is the indicator of their equality. -/
private theorem hot_word (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · have e : IntOp.cmpi .eq a b = 1#1 := by subst h; simp [IntOp.cmpi]
    have t : ((1#1 : BitVec 1).setWidth 32).toInt = 1 := by decide
    rw [if_pos h, e, t, Int.cast_one, EReal.coe_one]
  · have hb : (a == b) = false := beq_eq_false_iff_ne.mpr h
    have e : IntOp.cmpi .eq a b = 0#1 := by
      show BitVec.ofBool (a == b) = 0#1
      rw [hb]; rfl
    have t : ((0#1 : BitVec 1).setWidth 32).toInt = 0 := by decide
    rw [if_neg h, e, t, Int.cast_zero, EReal.coe_zero]

/-- The graph numbers of half `h`: entry `(n, r)` is the word of `1024 h + r`, whatever the node `n`. -/
private theorem graphs_apply (i : grid0.Coords) (n : Fin 2000) (r : Fin 1024) :
    k0_pay5 i (ix2 n r) = BitVec.ofNat 32 (1024 * (i 0).val + r.val) := by
  have e := iota_single_apply .tc S2000x1024 32 (1 : Fin 2) iota_S2000x1024_d1_w32 (ix2 n r)
  unfold k0_pay5
  show iota .tc S2000x1024 32 [1] iota_S2000x1024_d1_w32 (ix2 n r) + BitVec.ofNat 32 (i 0).val * 1024#32 = _
  rw [e]
  exact word_eq _ _

/-- Column `col` of the tile's index words, spread along the 1024 rows of the half: entry `(n, r)` is node `n`'s word. -/
private theorem column_apply (x2 : IVec S2000x2 32) (col : Fin 2) (h : S2000x2.Slices ![0, col.val] S2000x1) (n : Fin 2000) (r : Fin 1024) :
    broadcastTo S2000x1024 (extractStridedSlice S2000x1 ![0, col.val] (shapeCast S2000x2 x2 shapeCasts_S2000x2_S2000x2) h)
      broadcasts_S2000x1_S2000x1024 (ix2 n r) = x2 (ix2 n col) := by
  rw [shapeCast_self]
  refine (broadcastTo_apply _ broadcasts_S2000x1_S2000x1024 (ix2 n r) (ix2 n (0 : Fin 1)) fun a => ?_).trans ?_
  · match a with
    | ⟨0, _⟩ => rfl
    | ⟨1, _⟩ => rfl
  · refine extractStridedSlice_apply _ x2 h (ix2 n (0 : Fin 1)) (ix2 n col) fun a => ?_
    match a with
    | ⟨0, _⟩ => exact (Nat.zero_add _).symm
    | ⟨1, _⟩ => exact (Nat.add_zero _).symm

/-- The indicator block of column `col`: entry `(n, r)` is one when node `n`'s word in that column is graph `1024 h + r`. -/
private theorem hot_apply (i : grid0.Coords) (x2 : IVec S2000x2 32) (col : Fin 2) (h : S2000x2.Slices ![0, col.val] S2000x1)
    (n : Fin 2000) (r : Fin 1024) :
    truncf (F := Ideal) .bf16 (sitofp .f32 (extui 32 (cmpi .eq
      (broadcastTo S2000x1024 (extractStridedSlice S2000x1 ![0, col.val] (shapeCast S2000x2 x2 shapeCasts_S2000x2_S2000x2) h)
        broadcasts_S2000x1_S2000x1024) (k0_pay5 i)) natLt_1_32)) bitsLt_bf16_f32 (ix2 n r)
      = Spec.hotw (x2 (ix2 n col)) (1024 * (i 0).val + r.val) := by
  show FloatOps.sitofp (F := Ideal) .f32 ((IntOp.cmpi .eq
    (broadcastTo S2000x1024 (extractStridedSlice S2000x1 ![0, col.val] (shapeCast S2000x2 x2 shapeCasts_S2000x2_S2000x2) h)
      broadcasts_S2000x1_S2000x1024 (ix2 n r)) (k0_pay5 i (ix2 n r))).setWidth 32) = _
  rw [column_apply x2 col h n r, graphs_apply i n r]
  exact hot_word _ _

/-- The weight block of output 3 reads the first column of index words. -/
private theorem hot0_apply (i : grid0.Coords) (x2 : Vec Ideal S2000x2 .i32) (n : Fin 2000) (r : Fin 1024) :
    k0_pay7 (F := Ideal) i x2 (ix2 n r) = Spec.hotw (x2 (ix2 n 0)) (1024 * (i 0).val + r.val) := by
  unfold k0_pay7 k0_pay6
  exact hot_apply i x2 0 slices_S2000x2_o0_0_S2000x1 n r

/-- The weight block of output 4 reads the second column of index words. -/
private theorem hot1_apply (i : grid0.Coords) (x2 : Vec Ideal S2000x2 .i32) (n : Fin 2000) (r : Fin 1024) :
    k0_pay10 (F := Ideal) i x2 (ix2 n r) = Spec.hotw (x2 (ix2 n 1)) (1024 * (i 0).val + r.val) := by
  unfold k0_pay10 k0_pay6
  exact hot_apply i x2 1 slices_S2000x2_o0_1_S2000x1 n r

/-! The block product contracts the node axis of both operands: at `(r, d)` and node `n` the left operand is read at
    `(n, r)` and the right at `(n, d)`. -/
private theorem lhs_axis0 (j : S1024x256.Idx) (k : dot_S2000x1024_S2000x256_S1024x256_0_0_1_1_n_n.contr.Idx) :
    (dot_S2000x1024_S2000x256_S1024x256_0_0_1_1_n_n.lhsIdx j k 0 : ℕ) = k ⟨0, by decide⟩ := by
  simp [DotDims.lhsIdx, dot_S2000x1024_S2000x256_S1024x256_0_0_1_1_n_n]; rfl
private theorem lhs_axis1 (j : S1024x256.Idx) (k : dot_S2000x1024_S2000x256_S1024x256_0_0_1_1_n_n.contr.Idx) :
    (dot_S2000x1024_S2000x256_S1024x256_0_0_1_1_n_n.lhsIdx j k 1 : ℕ) = j 0 := by
  simp [DotDims.lhsIdx, dot_S2000x1024_S2000x256_S1024x256_0_0_1_1_n_n]; rfl
private theorem rhs_axis0 (j : S1024x256.Idx) (k : dot_S2000x1024_S2000x256_S1024x256_0_0_1_1_n_n.contr.Idx) :
    (dot_S2000x1024_S2000x256_S1024x256_0_0_1_1_n_n.rhsIdx j k 0 : ℕ) = k ⟨0, by decide⟩ := by
  simp [DotDims.rhsIdx, dot_S2000x1024_S2000x256_S1024x256_0_0_1_1_n_n]; rfl
private theorem rhs_axis1 (j : S1024x256.Idx) (k : dot_S2000x1024_S2000x256_S1024x256_0_0_1_1_n_n.contr.Idx) :
    (dot_S2000x1024_S2000x256_S1024x256_0_0_1_1_n_n.rhsIdx j k 1 : ℕ) = j 1 := by
  simp [DotDims.rhsIdx, dot_S2000x1024_S2000x256_S1024x256_0_0_1_1_n_n]; rfl

/-- The block product into the zero block, read at `(r, d)`: the sum over the tile's nodes of the products. -/
private theorem product_apply (w : FVec Ideal S2000x1024 .bf16) (y : FVec Ideal S2000x256 .bf16) (r : Fin 1024) (d : Fin 256) :
    matmul (F := Ideal) dot_S2000x1024_S2000x256_S1024x256_0_0_1_1_n_n none w y (constant (F := Ideal) S1024x256 .f32 0x00000000#32) (ix2 r d)
      = ∑ n : Fin 2000, w (ix2 n r) * y (ix2 n d) := by
  show FloatOps.matmul dot_S2000x1024_S2000x256_S1024x256_0_0_1_1_n_n none w y (constant (F := Ideal) S1024x256 .f32 0x00000000#32) (ix2 r d) = _
  rw [Ideal.matmul_constant_zero_apply, ← Equiv.sum_comp (contrEquiv1 dot_S2000x1024_S2000x256_S1024x256_0_0_1_1_n_n 2000 rfl rfl).symm]
  refine Finset.sum_congr rfl fun n _ => ?_
  have c1 := contrEquiv1_symm_val dot_S2000x1024_S2000x256_S1024x256_0_0_1_1_n_n 2000 rfl rfl n
  have el : dot_S2000x1024_S2000x256_S1024x256_0_0_1_1_n_n.lhsIdx (ix2 r d) ((contrEquiv1 dot_S2000x1024_S2000x256_S1024x256_0_0_1_1_n_n 2000 rfl rfl).symm n) = ix2 n r := by
    funext ax; apply Fin.ext
    match ax with
    | ⟨0, _⟩ => exact (lhs_axis0 _ _).trans c1
    | ⟨1, _⟩ => exact lhs_axis1 _ _
  have er : dot_S2000x1024_S2000x256_S1024x256_0_0_1_1_n_n.rhsIdx (ix2 r d) ((contrEquiv1 dot_S2000x1024_S2000x256_S1024x256_0_0_1_1_n_n 2000 rfl rfl).symm n) = ix2 n d := by
    funext ax; apply Fin.ext
    match ax with
    | ⟨0, _⟩ => exact (rhs_axis0 _ _).trans c1
    | ⟨1, _⟩ => exact rhs_axis1 _ _
  rw [el, er]

/-- One accumulation: what the buffer held plus the block product, read at `(r, d)`. -/
private theorem acc_apply (acc : Vec Ideal S1024x256 .f32) (w : FVec Ideal S2000x1024 .bf16) (y : FVec Ideal S2000x256 .bf16)
    (r : Fin 1024) (d : Fin 256) :
    addf (F := Ideal) (shapeCast S1024x256 acc shapeCasts_S1024x256_S1024x256)
      (matmul (F := Ideal) dot_S2000x1024_S2000x256_S1024x256_0_0_1_1_n_n none w y (constant (F := Ideal) S1024x256 .f32 0x00000000#32)) (ix2 r d)
      = acc (ix2 r d) + ∑ n : Fin 2000, w (ix2 n r) * y (ix2 n d) :=
  congrArg₂ (· + ·) (congrFun (shapeCast_self acc shapeCasts_S1024x256_S1024x256) (ix2 r d)) (product_apply w y r d)

/-- The first accumulation of output 3: the indicator-weighted sum of the tile's rows. -/
private theorem first3_apply (i : grid0.Coords) (x2 : Vec Ideal S2000x2 .i32) (x : Vec Ideal S2000x256 .f32) (acc : Vec Ideal S1024x256 .f32)
    (r : Fin 1024) (d : Fin 256) :
    k0_pay8 (F := Ideal) i x2 x acc (ix2 r d)
      = acc (ix2 r d) + ∑ n : Fin 2000, Spec.hotw (x2 (ix2 n 0)) (1024 * (i 0).val + r.val) * x (ix2 n d) := by
  unfold k0_pay8
  refine (acc_apply acc _ _ r d).trans (congrArg (acc (ix2 r d) + ·) (Finset.sum_congr rfl fun n _ => ?_))
  exact congrArg (· * x (ix2 n d)) (hot0_apply i x2 n r)

/-- The second accumulation of output 3: the same weighted sum of each row's difference from itself. -/
private theorem second3_apply (i : grid0.Coords) (x2 : Vec Ideal S2000x2 .i32) (x : Vec Ideal S2000x256 .f32) (acc : Vec Ideal S1024x256 .f32)
    (r : Fin 1024) (d : Fin 256) :
    k0_pay9 (F := Ideal) i x2 x acc (ix2 r d)
      = acc (ix2 r d) + ∑ n : Fin 2000, Spec.hotw (x2 (ix2 n 0)) (1024 * (i 0).val + r.val) * (x (ix2 n d) - x (ix2 n d)) := by
  unfold k0_pay9
  refine (acc_apply acc _ _ r d).trans (congrArg (acc (ix2 r d) + ·) (Finset.sum_congr rfl fun n _ => ?_))
  exact congrArg (· * (x (ix2 n d) - x (ix2 n d))) (hot0_apply i x2 n r)

/-- The two accumulations of output 4, over any weight block `w`. -/
private theorem first4_apply (w : FVec Ideal S2000x1024 .bf16) (x : Vec Ideal S2000x256 .f32) (acc : Vec Ideal S1024x256 .f32)
    (r : Fin 1024) (d : Fin 256) :
    k0_pay1 (F := Ideal) w x acc (ix2 r d) = acc (ix2 r d) + ∑ n : Fin 2000, w (ix2 n r) * x (ix2 n d) := by
  unfold k0_pay1
  exact acc_apply acc _ _ r d

/-- The second accumulation of output 4: the weighted sum of each row's difference from itself. -/
private theorem second4_apply (w : FVec Ideal S2000x1024 .bf16) (x : Vec Ideal S2000x256 .f32) (acc : Vec Ideal S1024x256 .f32)
    (r : Fin 1024) (d : Fin 256) :
    k0_pay2 (F := Ideal) w x acc (ix2 r d) = acc (ix2 r d) + ∑ n : Fin 2000, w (ix2 n r) * (x (ix2 n d) - x (ix2 n d)) := by
  unfold k0_pay2
  exact acc_apply acc _ _ r d

/-- The block a first tile starts from is zero everywhere. -/
private theorem zero3_apply (j : S1024x256.Idx) : k0_pay3 (F := Ideal) j = 0 := Ideal.ofBits_zero_f32
/-- The same for output 4's first store. -/
private theorem zero4_apply (j : S1024x256.Idx) : k0_pay4 (F := Ideal) j = 0 := Ideal.ofBits_zero_f32

/-- The tile step of the specification, read at `(r, d)`. -/
private theorem step_apply (acc : Spec.Half.Idx → EReal) (x : Spec.Tile.Idx → EReal) (idx : Spec.TileIdx.Idx → BitVec 32) (col : Fin 2) (h : ℕ)
    (r : Fin 1024) (d : Fin 256) :
    Spec.step acc x idx col h (ix2 r d)
      = (acc (ix2 r d) + ∑ n : Fin 2000, Spec.hotw (idx (ix2 n col)) (1024 * h + r.val) * x (ix2 n d))
        + ∑ n : Fin 2000, Spec.hotw (idx (ix2 n col)) (1024 * h + r.val) * (x (ix2 n d) - x (ix2 n d)) := rfl

theorem out_A_3 (c : Dev nD) (i : grid0.Coords) (a2 : Memref sig .tc .vmem S2000x256 .f32) (h2 : a2.IsWhole)
    (a3 : Memref sig .tc .vmem S2000x256 .f32) (h3 : a3.IsWhole) (a4 : Memref sig .tc .vmem S2000x2 .i32) (h4 : a4.IsWhole)
    (a5 : Memref sig .tc .vmem S1024x256 .f32) (h5 : a5.IsWhole) (a6 : Memref sig .tc .vmem S1024x256 .f32) (h6 : a6.IsWhole)
    (hc : cond0_0 i) (x0 x1 : Vec Ideal S2000x256 .f32) (x2 : Vec Ideal S2000x2 .i32) :
    out0_A_3 (F := Ideal) c i a2 h2 a3 h3 a4 h4 a5 h5 a6 h6 hc x0 x1 x2 = Spec.step (fun _ => 0) x0 x2 0 (i 0).val := by
  rw [piece_A_3]
  funext j
  obtain ⟨r, d, rfl⟩ : ∃ (r : Fin 1024) (d : Fin 256), j = ix2 r d := ⟨j 0, j 1, eq_ix2 j⟩
  rw [step_apply, second3_apply, first3_apply, zero3_apply]

theorem out_A_4 (c : Dev nD) (i : grid0.Coords) (a2 : Memref sig .tc .vmem S2000x256 .f32) (h2 : a2.IsWhole)
    (a3 : Memref sig .tc .vmem S2000x256 .f32) (h3 : a3.IsWhole) (a4 : Memref sig .tc .vmem S2000x2 .i32) (h4 : a4.IsWhole)
    (a5 : Memref sig .tc .vmem S1024x256 .f32) (h5 : a5.IsWhole) (a6 : Memref sig .tc .vmem S1024x256 .f32) (h6 : a6.IsWhole)
    (hc : cond0_0 i) (x0 x1 : Vec Ideal S2000x256 .f32) (x2 : Vec Ideal S2000x2 .i32) :
    out0_A_4 (F := Ideal) c i a2 h2 a3 h3 a4 h4 a5 h5 a6 h6 hc x0 x1 x2 = Spec.step (fun _ => 0) x1 x2 1 (i 0).val := by
  rw [piece_A_4]
  funext j
  obtain ⟨r, d, rfl⟩ : ∃ (r : Fin 1024) (d : Fin 256), j = ix2 r d := ⟨j 0, j 1, eq_ix2 j⟩
  rw [step_apply, second4_apply, first4_apply, zero4_apply]
  simp only [hot1_apply]

theorem out_B_3 (c : Dev nD) (i : grid0.Coords) (a2 : Memref sig .tc .vmem S2000x256 .f32) (h2 : a2.IsWhole)
    (a3 : Memref sig .tc .vmem S2000x256 .f32) (h3 : a3.IsWhole) (a4 : Memref sig .tc .vmem S2000x2 .i32) (h4 : a4.IsWhole)
    (a5 : Memref sig .tc .vmem S1024x256 .f32) (h5 : a5.IsWhole) (a6 : Memref sig .tc .vmem S1024x256 .f32) (h6 : a6.IsWhole)
    (hc : ¬cond0_0 i) (x0 x1 : Vec Ideal S2000x256 .f32) (x2 : Vec Ideal S2000x2 .i32) (xo3 xo4 : Vec Ideal S1024x256 .f32) :
    out0_B_3 (F := Ideal) c i a2 h2 a3 h3 a4 h4 a5 h5 a6 h6 hc x0 x1 x2 xo3 xo4 = Spec.step xo3 x0 x2 0 (i 0).val := by
  rw [piece_B_3]
  funext j
  obtain ⟨r, d, rfl⟩ : ∃ (r : Fin 1024) (d : Fin 256), j = ix2 r d := ⟨j 0, j 1, eq_ix2 j⟩
  rw [step_apply, second3_apply, first3_apply]

theorem out_B_4 (c : Dev nD) (i : grid0.Coords) (a2 : Memref sig .tc .vmem S2000x256 .f32) (h2 : a2.IsWhole)
    (a3 : Memref sig .tc .vmem S2000x256 .f32) (h3 : a3.IsWhole) (a4 : Memref sig .tc .vmem S2000x2 .i32) (h4 : a4.IsWhole)
    (a5 : Memref sig .tc .vmem S1024x256 .f32) (h5 : a5.IsWhole) (a6 : Memref sig .tc .vmem S1024x256 .f32) (h6 : a6.IsWhole)
    (hc : ¬cond0_0 i) (x0 x1 : Vec Ideal S2000x256 .f32) (x2 : Vec Ideal S2000x2 .i32) (xo3 xo4 : Vec Ideal S1024x256 .f32) :
    out0_B_4 (F := Ideal) c i a2 h2 a3 h3 a4 h4 a5 h5 a6 h6 hc x0 x1 x2 xo3 xo4 = Spec.step xo4 x1 x2 1 (i 0).val := by
  rw [piece_B_4]
  funext j
  obtain ⟨r, d, rfl⟩ : ∃ (r : Fin 1024) (d : Fin 256), j = ix2 r d := ⟨j 0, j 1, eq_ix2 j⟩
  rw [step_apply, second4_apply, first4_apply]
  simp only [hot1_apply]

end Cert.KernelIdeal.SegBody

end
-- ==== Proof.SegArray.lean ====
/-
  The segment-sum region's two result arrays, whole: each is the per-graph sum of its node array under its column
  of index words, when the node array holds real numbers.
-/
import proofs.«406492_j75496935129282_4_alg».proof.Proof.Gen.KernelIdeal.Frame
import proofs.«406492_j75496935129282_4_alg».proof.Proof.Spec
import proofs.«406492_j75496935129282_4_alg».proof.Proof.SegBody
import Idealize.ShloMosaic.Lib.Pipeline.Value

noncomputable section

namespace Cert.KernelIdeal.SegArray

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The arithmetic: one tile's update of a real-valued running sum -/

/-- Coercion from the reals commutes with finite sums. -/
private theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The indicator weight times a real number is that number or zero. -/
private theorem hotw_mul (w : BitVec 32) (k : ℕ) (r : ℝ) :
    Spec.hotw w k * (r : EReal) = ((if w = BitVec.ofNat 32 k then r else 0 : ℝ) : EReal) := by
  unfold Spec.hotw
  split_ifs
  · rw [one_mul]
  · rw [zero_mul, EReal.coe_zero]

/-- On real data one tile's update adds the tile's rows of the graph: every row's difference from itself is zero, so
    the remainder sum vanishes. -/
private theorem step_coe (acc : Spec.Half.Idx → EReal) (x : Spec.Tile.Idx → EReal) (idx : Spec.TileIdx.Idx → BitVec 32)
    (col : Fin 2) (h : ℕ) (j : Spec.Half.Idx) (a : ℝ) (r : Fin 2000 → ℝ)
    (hacc : acc j = (a : EReal)) (hx : ∀ n : Fin 2000, x (ix2 n (j 1)) = (r n : EReal)) :
    Spec.step acc x idx col h j
      = ((a + ∑ n : Fin 2000, (if idx (ix2 n col) = BitVec.ofNat 32 (1024 * h + (j 0).val) then r n else 0) : ℝ) : EReal) := by
  unfold Spec.step
  simp only [hx, hacc]
  have h2 : ∀ n : Fin 2000, Spec.hotw (idx (ix2 n col)) (1024 * h + (j 0).val) * ((r n : EReal) - (r n : EReal)) = 0 := by
    intro n
    rw [← EReal.coe_sub, sub_self, EReal.coe_zero, mul_zero]
  simp only [h2, Finset.sum_const_zero, add_zero, hotw_mul]
  rw [coe_sum, ← EReal.coe_add]

/-- Node `k`'s contribution to coordinate `d` of graph `g` (zero past the last node). -/
private def term (xr : Spec.Nodes.Idx → ℝ) (w : Fin 200000 → BitVec 32) (g : ℕ) (d : Fin 256) (k : ℕ) : ℝ :=
  if hk : k < 200000 then (if w ⟨k, hk⟩ = BitVec.ofNat 32 g then xr (ix2 ⟨k, hk⟩ d) else 0) else 0

/-- The sum over the nodes before tile `T`, plus tile `T`'s 2000 nodes, is the sum over the nodes before tile `T + 1`. -/
private theorem tile_add (xr : Spec.Nodes.Idx → ℝ) (w : Fin 200000 → BitVec 32) (g : ℕ) (d : Fin 256) (T : ℕ) (hT : T < 100)
    (a : ℝ) (ha : a = ∑ k ∈ Finset.range (2000 * T), term xr w g d k)
    (r : Fin 2000 → ℝ) (b : Fin 2000 → BitVec 32)
    (hr : ∀ n : Fin 2000, r n = xr (ix2 ⟨2000 * T + n.val, by have := n.isLt; omega⟩ d))
    (hb : ∀ n : Fin 2000, b n = w ⟨2000 * T + n.val, by have := n.isLt; omega⟩) :
    a + ∑ n : Fin 2000, (if b n = BitVec.ofNat 32 g then r n else 0)
      = ∑ k ∈ Finset.range (2000 * (T + 1)), term xr w g d k := by
  rw [show 2000 * (T + 1) = 2000 * T + 2000 by ring, Finset.sum_range_add, Finset.sum_range (fun x => term xr w g d (2000 * T + x)), ha]
  congr 1
  refine Finset.sum_congr rfl fun n _ => ?_
  unfold term
  rw [dif_pos (by have := n.isLt; omega), hr, hb]

/-- The per-graph sum of real data is the coercion of the real sum over all the nodes. -/
private theorem seg_eq (xr : Spec.Nodes.Idx → ℝ) (x : Spec.Nodes.Idx → EReal) (hx : x = fun i => (xr i : EReal))
    (w : Fin 200000 → BitVec 32) (g : Fin 2048) (d : Fin 256) :
    Spec.seg x w g d = ((∑ k ∈ Finset.range 200000, term xr w g.val d k : ℝ) : EReal) := by
  unfold Spec.seg
  subst hx
  rw [Finset.sum_range (fun k => term xr w g.val d k), ← coe_sum]
  refine Finset.sum_congr rfl fun n _ => ?_
  unfold term
  rw [dif_pos n.isLt]
  split_ifs
  · rfl
  · rw [EReal.coe_zero]

/-! ## The blocks the body reads, as rows of the arrays -/

/-- The printed index maps and the first grid coordinate, decided over the grid: point `t` is tile `t % 100` of half `t / 100`. -/
private theorem grid_facts : ∀ t : Fin cfg0.N, (grid0.coords t 0).val = t.val / 100
    ∧ win0_0.index t (0 : Fin 2) = t.val % 100 ∧ win0_0.index t (1 : Fin 2) = 0
    ∧ win0_1.index t (0 : Fin 2) = t.val % 100 ∧ win0_1.index t (1 : Fin 2) = 0
    ∧ win0_2.index t (0 : Fin 2) = t.val % 100 ∧ win0_2.index t (1 : Fin 2) = 0
    ∧ win0_3.index t (0 : Fin 2) = t.val / 100 ∧ win0_3.index t (1 : Fin 2) = 0
    ∧ win0_4.index t (0 : Fin 2) = t.val / 100 ∧ win0_4.index t (1 : Fin 2) = 0 :=
  (by decide +kernel : ∀ t : Fin grid0.N, _)

/-- The first node array, the second, and the array of index words, at their literal types. -/
private abbrev xarr0 (c : Dev nD) : S200000x256.Idx → EReal := V c main_arg0
private abbrev xarr1 (c : Dev nD) : S200000x256.Idx → EReal := V c main_arg1
private abbrev warr (c : Dev nD) : S200000x2.Idx → BitVec 32 := V c main_v2

/-- The three input blocks at point `t`, at their literal types. -/
private abbrev xblk0 (c : Dev nD) (t : Fin cfg0.N) : Vec Ideal S2000x256 .f32 := iblk0 V c 0 t
private abbrev xblk1 (c : Dev nD) (t : Fin cfg0.N) : Vec Ideal S2000x256 .f32 := iblk0 V c 1 t
private abbrev wblk (c : Dev nD) (t : Fin cfg0.N) : Vec Ideal S2000x2 .i32 := iblk0 V c 2 t

/-- Row `n` of the first node array's block at point `t` is row `2000 (t % 100) + n` of the array. -/
private theorem xblk0_apply (c : Dev nD) (t : Fin cfg0.N) (n : Fin 2000) (d : Fin 256)
    (hk : 2000 * (t.val % 100) + n.val < 200000) :
    xblk0 V c t (ix2 n d) = xarr0 V c (ix2 ⟨2000 * (t.val % 100) + n.val, hk⟩ d) := by
  obtain ⟨-, e0, e1, -⟩ := grid_facts t
  unfold xblk0 iblk0
  rw [View.read_apply]
  show V c main_arg0 _ = V c main_arg0 _
  congr 1
  funext a
  apply Fin.ext
  match a with
  | ⟨0, _⟩ => show win0_0.index t 0 * 2000 + 1 * n.val = 2000 * (t.val % 100) + n.val; rw [e0]; omega
  | ⟨1, _⟩ => show win0_0.index t 1 * 256 + 1 * d.val = d.val; rw [e1]; omega

/-- Row `n` of the second node array's block at point `t` is row `2000 (t % 100) + n` of the array. -/
private theorem xblk1_apply (c : Dev nD) (t : Fin cfg0.N) (n : Fin 2000) (d : Fin 256)
    (hk : 2000 * (t.val % 100) + n.val < 200000) :
    xblk1 V c t (ix2 n d) = xarr1 V c (ix2 ⟨2000 * (t.val % 100) + n.val, hk⟩ d) := by
  obtain ⟨-, -, -, e0, e1, -⟩ := grid_facts t
  unfold xblk1 iblk0
  rw [View.read_apply]
  show V c main_arg1 _ = V c main_arg1 _
  congr 1
  funext a
  apply Fin.ext
  match a with
  | ⟨0, _⟩ => show win0_1.index t 0 * 2000 + 1 * n.val = 2000 * (t.val % 100) + n.val; rw [e0]; omega
  | ⟨1, _⟩ => show win0_1.index t 1 * 256 + 1 * d.val = d.val; rw [e1]; omega

/-- Row `n` of the index words' block at point `t` is row `2000 (t % 100) + n` of the array of index words. -/
private theorem wblk_apply (c : Dev nD) (t : Fin cfg0.N) (n : Fin 2000) (col : Fin 2)
    (hk : 2000 * (t.val % 100) + n.val < 200000) :
    wblk V c t (ix2 n col) = warr V c (ix2 ⟨2000 * (t.val % 100) + n.val, hk⟩ col) := by
  obtain ⟨-, -, -, -, -, e0, e1, -⟩ := grid_facts t
  unfold wblk iblk0
  rw [View.read_apply]
  show V c main_v2 _ = V c main_v2 _
  congr 1
  funext a
  apply Fin.ext
  match a with
  | ⟨0, _⟩ => show win0_2.index t 0 * 2000 + 1 * n.val = 2000 * (t.val % 100) + n.val; rw [e0]; omega
  | ⟨1, _⟩ => show win0_2.index t 1 * 2 + 1 * col.val = col.val; rw [e1]; omega

/-! ## The running sums, by induction on the point -/

/-- Column `col` of the index words, node by node. -/
private abbrev wcol (c : Dev nD) (col : Fin 2) : Fin 200000 → BitVec 32 := fun n => warr V c (ix2 n col)

/-- One point's update: over a buffer holding the real sum over the nodes before tile `t % 100`, the tile's step
    leaves the real sum over the nodes before the next tile. -/
private theorem point_step (c : Dev nD) (t : Fin cfg0.N) (col : Fin 2) (xa : S200000x256.Idx → EReal)
    (xr : S200000x256.Idx → ℝ) (hx : xa = fun i => ((xr i : ℝ) : EReal)) (xb : Vec Ideal S2000x256 .f32)
    (hblk : ∀ (n : Fin 2000) (d : Fin 256) (hk : 2000 * (t.val % 100) + n.val < 200000),
      xb (ix2 n d) = xa (ix2 ⟨2000 * (t.val % 100) + n.val, hk⟩ d))
    (acc : Vec Ideal S1024x256 .f32) (j : S1024x256.Idx)
    (hacc : acc j = ((∑ k ∈ Finset.range (2000 * (t.val % 100)),
      term xr (wcol V c col) (1024 * (t.val / 100) + (j 0).val) (j 1) k : ℝ) : EReal)) :
    Spec.step acc xb (wblk V c t) col (grid0.coords t 0).val j
      = ((∑ k ∈ Finset.range (2000 * (t.val % 100 + 1)),
          term xr (wcol V c col) (1024 * (t.val / 100) + (j 0).val) (j 1) k : ℝ) : EReal) := by
  have hN : t.val < 200 := lt_of_lt_of_eq t.isLt (show cfg0.N = 200 from N_0)
  have hk : ∀ n : Fin 2000, 2000 * (t.val % 100) + n.val < 200000 := fun n => by have := n.isLt; omega
  obtain ⟨eh, -⟩ := grid_facts t
  rw [step_coe acc xb (wblk V c t) col (grid0.coords t 0).val j _
    (fun n => xr (ix2 ⟨2000 * (t.val % 100) + n.val, hk n⟩ (j 1))) hacc
    (fun n => (hblk n (j 1) (hk n)).trans (congrFun hx _)), eh]
  exact congrArg Real.toEReal (tile_add xr (wcol V c col) (1024 * (t.val / 100) + (j 0).val) (j 1) (t.val % 100)
    (Nat.mod_lt _ (by decide)) _ rfl _ (fun n => wblk V c t (ix2 n col)) (fun n => rfl)
    (fun n => wblk_apply V c t n col (hk n)))

/-- After point `n` the first output's buffer holds, at row `r`, the real sum over the nodes before tile `n % 100 + 1`
    whose index word in column 0 is graph `1024 (n / 100) + r`. -/
private theorem outs3 (c : Dev nD) (xr : S200000x256.Idx → ℝ) (hx : xarr0 V c = fun i => ((xr i : ℝ) : EReal)) :
    ∀ (n : ℕ) (hn : n < cfg0.N) (j : S1024x256.Idx), (outsAt0 V c n hn).1 j
      = ((∑ k ∈ Finset.range (2000 * (n % 100 + 1)),
          term xr (wcol V c 0) (1024 * (n / 100) + (j 0).val) (j 1) k : ℝ) : EReal) := by
  have hA : ∀ (t : Fin cfg0.N) (h0 : t.val % 100 = 0) (j : S1024x256.Idx), (outsAt0 V c t.val t.isLt).1 j
      = ((∑ k ∈ Finset.range (2000 * (t.val % 100 + 1)),
          term xr (wcol V c 0) (1024 * (t.val / 100) + (j 0).val) (j 1) k : ℝ) : EReal) := by
    intro t h0 j
    rw [outsAt0_A V c t h0]
    dsimp only
    refine (congrFun (SegBody.out_A_3 c (grid0.coords t) (ms0_0 t) (hs0_0 t) (ms0_1 t) (hs0_1 t) (ms0_2 t) (hs0_2 t)
      (ms0_3 t) (hs0_3 t) (ms0_4 t) (hs0_4 t) ((hcond0_0 t).mpr h0) (xblk0 V c t) (xblk1 V c t) (wblk V c t)) j).trans ?_
    refine point_step V c t 0 (xarr0 V c) xr hx (xblk0 V c t) (xblk0_apply V c t) (fun _ => 0) j ?_
    rw [h0, Nat.mul_zero, Finset.range_zero, Finset.sum_empty, EReal.coe_zero]
  intro n
  induction n with
  | zero => intro hn j; exact hA ⟨0, hn⟩ rfl j
  | succ n ih =>
    intro hn j
    by_cases h0 : (n + 1) % 100 = 0
    · exact hA ⟨n + 1, hn⟩ h0 j
    · rw [outsAt0_B V c ⟨n + 1, hn⟩ h0]
      dsimp only
      refine (congrFun (SegBody.out_B_3 c (grid0.coords ⟨n + 1, hn⟩) (ms0_0 ⟨n + 1, hn⟩) (hs0_0 ⟨n + 1, hn⟩)
        (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩)
        (ms0_4 ⟨n + 1, hn⟩) (hs0_4 ⟨n + 1, hn⟩) (fun h => h0 ((hcond0_0 ⟨n + 1, hn⟩).mp h))
        (xblk0 V c ⟨n + 1, hn⟩) (xblk1 V c ⟨n + 1, hn⟩) (wblk V c ⟨n + 1, hn⟩)
        (outsAt0 V c n (Nat.lt_of_succ_lt hn)).1 (outsAt0 V c n (Nat.lt_of_succ_lt hn)).2) j).trans ?_
      refine point_step V c ⟨n + 1, hn⟩ 0 (xarr0 V c) xr hx (xblk0 V c ⟨n + 1, hn⟩) (xblk0_apply V c ⟨n + 1, hn⟩)
        (outsAt0 V c n (Nat.lt_of_succ_lt hn)).1 j ?_
      rw [ih (Nat.lt_of_succ_lt hn) j]
      show _ = ((∑ k ∈ Finset.range (2000 * ((n + 1) % 100)),
        term xr (wcol V c 0) (1024 * ((n + 1) / 100) + (j 0).val) (j 1) k : ℝ) : EReal)
      rw [show n % 100 + 1 = (n + 1) % 100 by omega, show n / 100 = (n + 1) / 100 by omega]

/-- After point `n` the second output's buffer holds, at row `r`, the real sum over the nodes before tile `n % 100 + 1`
    whose index word in column 1 is graph `1024 (n / 100) + r`. -/
private theorem outs4 (c : Dev nD) (xr : S200000x256.Idx → ℝ) (hx : xarr1 V c = fun i => ((xr i : ℝ) : EReal)) :
    ∀ (n : ℕ) (hn : n < cfg0.N) (j : S1024x256.Idx), (outsAt0 V c n hn).2 j
      = ((∑ k ∈ Finset.range (2000 * (n % 100 + 1)),
          term xr (wcol V c 1) (1024 * (n / 100) + (j 0).val) (j 1) k : ℝ) : EReal) := by
  have hA : ∀ (t : Fin cfg0.N) (h0 : t.val % 100 = 0) (j : S1024x256.Idx), (outsAt0 V c t.val t.isLt).2 j
      = ((∑ k ∈ Finset.range (2000 * (t.val % 100 + 1)),
          term xr (wcol V c 1) (1024 * (t.val / 100) + (j 0).val) (j 1) k : ℝ) : EReal) := by
    intro t h0 j
    rw [outsAt0_A V c t h0]
    dsimp only
    refine (congrFun (SegBody.out_A_4 c (grid0.coords t) (ms0_0 t) (hs0_0 t) (ms0_1 t) (hs0_1 t) (ms0_2 t) (hs0_2 t)
      (ms0_3 t) (hs0_3 t) (ms0_4 t) (hs0_4 t) ((hcond0_0 t).mpr h0) (xblk0 V c t) (xblk1 V c t) (wblk V c t)) j).trans ?_
    refine point_step V c t 1 (xarr1 V c) xr hx (xblk1 V c t) (xblk1_apply V c t) (fun _ => 0) j ?_
    rw [h0, Nat.mul_zero, Finset.range_zero, Finset.sum_empty, EReal.coe_zero]
  intro n
  induction n with
  | zero => intro hn j; exact hA ⟨0, hn⟩ rfl j
  | succ n ih =>
    intro hn j
    by_cases h0 : (n + 1) % 100 = 0
    · exact hA ⟨n + 1, hn⟩ h0 j
    · rw [outsAt0_B V c ⟨n + 1, hn⟩ h0]
      dsimp only
      refine (congrFun (SegBody.out_B_4 c (grid0.coords ⟨n + 1, hn⟩) (ms0_0 ⟨n + 1, hn⟩) (hs0_0 ⟨n + 1, hn⟩)
        (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩)
        (ms0_4 ⟨n + 1, hn⟩) (hs0_4 ⟨n + 1, hn⟩) (fun h => h0 ((hcond0_0 ⟨n + 1, hn⟩).mp h))
        (xblk0 V c ⟨n + 1, hn⟩) (xblk1 V c ⟨n + 1, hn⟩) (wblk V c ⟨n + 1, hn⟩)
        (outsAt0 V c n (Nat.lt_of_succ_lt hn)).1 (outsAt0 V c n (Nat.lt_of_succ_lt hn)).2) j).trans ?_
      refine point_step V c ⟨n + 1, hn⟩ 1 (xarr1 V c) xr hx (xblk1 V c ⟨n + 1, hn⟩) (xblk1_apply V c ⟨n + 1, hn⟩)
        (outsAt0 V c n (Nat.lt_of_succ_lt hn)).2 j ?_
      rw [ih (Nat.lt_of_succ_lt hn) j]
      show _ = ((∑ k ∈ Finset.range (2000 * ((n + 1) % 100)),
        term xr (wcol V c 1) (1024 * ((n + 1) / 100) + (j 0).val) (j 1) k : ℝ) : EReal)
      rw [show n % 100 + 1 = (n + 1) % 100 by omega, show n / 100 = (n + 1) / 100 by omega]

/-! ## From the blocks to the arrays -/

/-- The array of per-graph sums of real data, at an index given by its coordinates. -/
private theorem seg_at (xr : Spec.Nodes.Idx → ℝ) (x : Spec.Nodes.Idx → EReal) (hx : x = fun i => (xr i : EReal))
    (w : Fin 200000 → BitVec 32) (i : Spec.Segs.Idx) (g : ℕ) (d : Fin 256) (hg : (i 0).val = g) (hd : i 1 = d) :
    Spec.segArr x w i = ((∑ k ∈ Finset.range 200000, term xr w g d k : ℝ) : EReal) := by
  subst hg hd
  exact seg_eq xr x hx w (i 0) (i 1)

/-- Row `r` of output 1's block at point `t` is row `1024 (t / 100) + r` of its array. -/
private theorem oblk3_apply (G : S2048x256.Idx → EReal) (t : Fin cfg0.N) (j : S1024x256.Idx)
    (hg : 1024 * (t.val / 100) + (j 0).val < 2048) :
    ((cfg0.win 3).blk t).view.read (Elt Ideal) G j = G (ix2 ⟨1024 * (t.val / 100) + (j 0).val, hg⟩ (j 1)) := by
  obtain ⟨-, -, -, -, -, -, -, e30, e31, e40, e41⟩ := grid_facts t
  rw [View.read_apply]
  show G _ = G _
  congr 1
  funext a
  apply Fin.ext
  match a with
  | ⟨0, _⟩ => show win0_3.index t 0 * 1024 + 1 * (j 0).val = 1024 * (t.val / 100) + (j 0).val; rw [e30]; omega
  | ⟨1, _⟩ => show win0_3.index t 1 * 256 + 1 * (j 1).val = (j 1).val; rw [e31]; omega

/-- What a flushing point (tile 99 of its half) writes back for output 1 is its block of the per-graph sums: the
    running sum then runs over all 200000 nodes. -/
private theorem flushed3 (c : Dev nD) (xr : S200000x256.Idx → ℝ) (hx : xarr0 V c = fun i => ((xr i : ℝ) : EReal))
    (t : Fin cfg0.N) (hf : (cfg0.win 3).flush t = true) :
    (dat0 (F := Ideal) V c).flushed 3 t
      = ((cfg0.win 3).blk t).view.read (Elt Ideal) (Spec.segArr (xarr0 V c) (wcol V c 0)) := by
  have hN : t.val < 200 := lt_of_lt_of_eq t.isLt (show cfg0.N = 200 from N_0)
  have h99 : t.val % 100 = 99 := (flush0_3 t).mp hf
  show (cfg0.win 3).cut (grid0.coords t) ((dat0 V c).after 3 t) = _
  rw [after0_3]
  refine funext fun (j : S1024x256.Idx) => ?_
  have hj0 : (j 0).val < 1024 := (j 0).isLt
  have hg : 1024 * (t.val / 100) + (j 0).val < 2048 := by omega
  refine (outs3 V c xr hx t.val t.isLt j).trans ?_
  refine Eq.trans ?_ (oblk3_apply (Spec.segArr (xarr0 V c) (wcol V c 0)) t j hg).symm
  rw [h99]
  exact (seg_at xr (xarr0 V c) hx (wcol V c 0) (ix2 ⟨1024 * (t.val / 100) + (j 0).val, hg⟩ (j 1))
    (1024 * (t.val / 100) + (j 0).val) (j 1) rfl rfl).symm

/-- Every row of output 1's array lies in the block of the last tile of its half. -/
private theorem cover3 (i : S2048x256.Idx) :
    ∃ t : Fin cfg0.N, (cfg0.win 3).flush t = true ∧ i ∈ ((cfg0.win 3).blk t).view.set := by
  have hi0 : (i 0).val < 2048 := (i 0).isLt
  have hi1 : (i 1).val < 256 := (i 1).isLt
  obtain ⟨t, ht⟩ : ∃ t : Fin cfg0.N, t.val = 100 * ((i 0).val / 1024) + 99 :=
    ⟨⟨100 * ((i 0).val / 1024) + 99, by rw [show cfg0.N = 200 from N_0]; omega⟩, rfl⟩
  obtain ⟨-, -, -, -, -, -, -, e30, e31, e40, e41⟩ := grid_facts t
  refine ⟨t, (flush0_3 t).mpr (by omega), ?_⟩
  show i ∈ ((View.whole main_v3_0).slice (win0_3.rect t)).set
  rw [View.set_slice_whole, Rect.mem_set_unit]
  intro a
  match a with
  | ⟨0, _⟩ =>
    show win0_3.index t 0 * 1024 ≤ (i 0).val ∧ (i 0).val < win0_3.index t 0 * 1024 + 1024
    rw [e30]; omega
  | ⟨1, _⟩ =>
    show win0_3.index t 1 * 256 ≤ (i 1).val ∧ (i 1).val < win0_3.index t 1 * 256 + 256
    rw [e31]; omega

/-- Row `r` of output 2's block at point `t` is row `1024 (t / 100) + r` of its array. -/
private theorem oblk4_apply (G : S2048x256.Idx → EReal) (t : Fin cfg0.N) (j : S1024x256.Idx)
    (hg : 1024 * (t.val / 100) + (j 0).val < 2048) :
    ((cfg0.win 4).blk t).view.read (Elt Ideal) G j = G (ix2 ⟨1024 * (t.val / 100) + (j 0).val, hg⟩ (j 1)) := by
  obtain ⟨-, -, -, -, -, -, -, e30, e31, e40, e41⟩ := grid_facts t
  rw [View.read_apply]
  show G _ = G _
  congr 1
  funext a
  apply Fin.ext
  match a with
  | ⟨0, _⟩ => show win0_4.index t 0 * 1024 + 1 * (j 0).val = 1024 * (t.val / 100) + (j 0).val; rw [e40]; omega
  | ⟨1, _⟩ => show win0_4.index t 1 * 256 + 1 * (j 1).val = (j 1).val; rw [e41]; omega

/-- What a flushing point (tile 99 of its half) writes back for output 2 is its block of the per-graph sums: the
    running sum then runs over all 200000 nodes. -/
private theorem flushed4 (c : Dev nD) (xr : S200000x256.Idx → ℝ) (hx : xarr1 V c = fun i => ((xr i : ℝ) : EReal))
    (t : Fin cfg0.N) (hf : (cfg0.win 4).flush t = true) :
    (dat0 (F := Ideal) V c).flushed 4 t
      = ((cfg0.win 4).blk t).view.read (Elt Ideal) (Spec.segArr (xarr1 V c) (wcol V c 1)) := by
  have hN : t.val < 200 := lt_of_lt_of_eq t.isLt (show cfg0.N = 200 from N_0)
  have h99 : t.val % 100 = 99 := (flush0_4 t).mp hf
  show (cfg0.win 4).cut (grid0.coords t) ((dat0 V c).after 4 t) = _
  rw [after0_4]
  refine funext fun (j : S1024x256.Idx) => ?_
  have hj0 : (j 0).val < 1024 := (j 0).isLt
  have hg : 1024 * (t.val / 100) + (j 0).val < 2048 := by omega
  refine (outs4 V c xr hx t.val t.isLt j).trans ?_
  refine Eq.trans ?_ (oblk4_apply (Spec.segArr (xarr1 V c) (wcol V c 1)) t j hg).symm
  rw [h99]
  exact (seg_at xr (xarr1 V c) hx (wcol V c 1) (ix2 ⟨1024 * (t.val / 100) + (j 0).val, hg⟩ (j 1))
    (1024 * (t.val / 100) + (j 0).val) (j 1) rfl rfl).symm

/-- Every row of output 2's array lies in the block of the last tile of its half. -/
private theorem cover4 (i : S2048x256.Idx) :
    ∃ t : Fin cfg0.N, (cfg0.win 4).flush t = true ∧ i ∈ ((cfg0.win 4).blk t).view.set := by
  have hi0 : (i 0).val < 2048 := (i 0).isLt
  have hi1 : (i 1).val < 256 := (i 1).isLt
  obtain ⟨t, ht⟩ : ∃ t : Fin cfg0.N, t.val = 100 * ((i 0).val / 1024) + 99 :=
    ⟨⟨100 * ((i 0).val / 1024) + 99, by rw [show cfg0.N = 200 from N_0]; omega⟩, rfl⟩
  obtain ⟨-, -, -, -, -, -, -, e30, e31, e40, e41⟩ := grid_facts t
  refine ⟨t, (flush0_4 t).mpr (by omega), ?_⟩
  show i ∈ ((View.whole main_v3_1).slice (win0_4.rect t)).set
  rw [View.set_slice_whole, Rect.mem_set_unit]
  intro a
  match a with
  | ⟨0, _⟩ =>
    show win0_4.index t 0 * 1024 ≤ (i 0).val ∧ (i 0).val < win0_4.index t 0 * 1024 + 1024
    rw [e40]; omega
  | ⟨1, _⟩ =>
    show win0_4.index t 1 * 256 ≤ (i 1).val ∧ (i 1).val < win0_4.index t 1 * 256 + 256
    rw [e41]; omega

/-! ## The two result arrays -/

theorem arr3 (c : Dev nD) (xr : S200000x256.Idx → ℝ)
    (hx : (V c main_arg0 : S200000x256.Idx → EReal) = fun i => ((xr i : ℝ) : EReal)) :
    (dat0 (F := Ideal) V c).arrAt 3 cfg0.N
      = Spec.segArr (V c main_arg0) (fun n => (V c main_v2 : S200000x2.Idx → BitVec 32) (ix2 n 0)) := by
  exact (dat0 (F := Ideal) V c).arrAt_eq_of_cover 3 (Spec.segArr (xarr0 V c) (wcol V c 0)) (flushed3 V c xr hx) cover3

theorem arr4 (c : Dev nD) (xr : S200000x256.Idx → ℝ)
    (hx : (V c main_arg1 : S200000x256.Idx → EReal) = fun i => ((xr i : ℝ) : EReal)) :
    (dat0 (F := Ideal) V c).arrAt 4 cfg0.N
      = Spec.segArr (V c main_arg1) (fun n => (V c main_v2 : S200000x2.Idx → BitVec 32) (ix2 n 1)) := by
  exact (dat0 (F := Ideal) V c).arrAt_eq_of_cover 4 (Spec.segArr (xarr1 V c) (wcol V c 1)) (flushed4 V c xr hx) cover4

end Cert.KernelIdeal.SegArray

end
-- ==== Proof.LossArray.lean ====
/-
  The contrastive region's result array, whole: entry (0, i) is the loss of graph i, computed from the region's three
  operand arrays as it finds them.
-/
import proofs.«406492_j75496935129282_4_alg».proof.Proof.Gen.KernelIdeal.Frame
import proofs.«406492_j75496935129282_4_alg».proof.Proof.Spec
import Idealize.ShloMosaic.Lib.Pipeline.Value
import Idealize.ShloMosaic.PureOps.Ideal.Laws

noncomputable section

namespace Cert.KernelIdeal.LossArray

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## One row of a block: the body's arithmetic at an index -/

/-- The sum along the lanes of a 128×256 array, at row r, is the sum over the 256 entries of that row. -/
private theorem red_lane (src : S128x256.Idx → EReal) (h : S128x256.Reduces [1] S128) (r : Fin 128) :
    Ideal.reduceAdd h src (ix1 r) = ∑ d : Fin 256, src (ix2 r d) := by
  refine (Ideal.reduceAdd_single h src (ix1 r)).trans ?_
  refine Finset.sum_congr rfl fun d _ => congrArg src ?_
  funext a; match a with | ⟨0, _⟩ => rfl | ⟨1, _⟩ => rfl

/-- The sum along the lanes of a 128×127×256 array, at (r, s), is the sum over the 256 entries of that row. -/
private theorem red_lane3 (src : S128x127x256.Idx → EReal) (h : S128x127x256.Reduces [2] S128x127) (r : Fin 128) (s : Fin 127) :
    Ideal.reduceAdd h src (ix2 r s) = ∑ d : Fin 256, src (ix3 r s d) := by
  refine (Ideal.reduceAdd_single h src (ix2 r s)).trans ?_
  refine Finset.sum_congr rfl fun d _ => congrArg src ?_
  funext a; match a with | ⟨0, _⟩ => rfl | ⟨1, _⟩ => rfl | ⟨2, _⟩ => rfl

/-- The sum along the rows of a 128×127 array, at row r, is the sum over its 127 entries. -/
private theorem red_rows (src : S128x127.Idx → EReal) (h : S128x127.Reduces [1] S128) (r : Fin 128) :
    Ideal.reduceAdd h src (ix1 r) = ∑ s : Fin 127, src (ix2 r s) := by
  refine (Ideal.reduceAdd_single h src (ix1 r)).trans ?_
  refine Finset.sum_congr rfl fun d _ => congrArg src ?_
  funext a; match a with | ⟨0, _⟩ => rfl | ⟨1, _⟩ => rfl

/-- A 128×256 array seen as 128×1×256 and repeated 127 times along the middle axis reads, at (r, s, d), its entry (r, d). -/
private theorem rep_rows (v : FVec Ideal S128x256 .f32) (h1 : S128x256.ShapeCasts S128x1x256) (h2 : S128x1x256.Broadcasts S128x127x256)
    (r : Fin 128) (s : Fin 127) (d : Fin 256) :
    broadcastTo S128x127x256 (shapeCast S128x1x256 v h1) h2 (ix3 r s d) = v (ix2 r d) := by
  refine (broadcastTo_apply (shapeCast S128x1x256 v h1) h2 (ix3 r s d) (ix3 r (0 : Fin 1) d) ?_).trans ?_
  · intro a
    match a with
    | ⟨0, _⟩ => rfl
    | ⟨1, _⟩ => rfl
    | ⟨2, _⟩ => rfl
  · refine shapeCast_apply v h1 (ix3 r (0 : Fin 1) d) (ix2 r d) ?_
    rw [Shape.rowMajor_val_two, Shape.rowMajor_val_three]
    show r.val * 256 + d.val = (r.val * 1 + 0) * 256 + d.val
    omega

/-- A 128-vector seen as a column and repeated along 127 columns reads, at (r, s), its entry r. -/
private theorem rep_col (v : FVec Ideal S128 .f32) (h1 : S128.ShapeCasts S128x1) (h2 : S128x1.Broadcasts S128x127)
    (r : Fin 128) (s : Fin 127) :
    broadcastTo S128x127 (shapeCast S128x1 v h1) h2 (ix2 r s) = v (ix1 r) := by
  refine (broadcastTo_apply (shapeCast S128x1 v h1) h2 (ix2 r s) (ix2 r (0 : Fin 1)) ?_).trans ?_
  · intro a
    match a with
    | ⟨0, _⟩ => rfl
    | ⟨1, _⟩ => rfl
  · refine shapeCast_apply v h1 (ix2 r (0 : Fin 1)) (ix1 r) ?_
    rw [Shape.rowMajor_val_one, Shape.rowMajor_val_two]
    show r.val = r.val * 1 + 0
    omega

/-- A 128-vector seen as a 1×128 row reads, at (0, r), its entry r. -/
private theorem as_row (v : FVec Ideal S128 .f32) (h : S128.ShapeCasts S1x128) (r : Fin 128) :
    shapeCast S1x128 v h (ix2 (0 : Fin 1) r) = v (ix1 r) := by
  refine shapeCast_apply v h (ix2 (0 : Fin 1) r) (ix1 r) ?_
  rw [Shape.rowMajor_val_one, Shape.rowMajor_val_two]
  show r.val = 0 * 128 + r.val
  omega

/-- The square root, the exponential and the logarithm of a vector, entry by entry. -/
private theorem sqrt_at {s : Shape} (a : FVec Ideal s .f32) (i : s.Idx) : Idealize.ShloMosaic.sqrt a i = Ideal.sqrt (a i) := rfl
private theorem exp_at {s : Shape} (a : FVec Ideal s .f32) (i : s.Idx) : Idealize.ShloMosaic.exp a i = Ideal.exp (a i) := rfl
private theorem log_at {s : Shape} (a : FVec Ideal s .f32) (i : s.Idx) : Idealize.ShloMosaic.log a i = Ideal.log (a i) := rfl

/-- The loss of one graph from its own row `a`, its positive row `b` and its 127 negative rows `n`:
    minus the logarithm of the positive pair's weight over the sum of the negative pairs' weights. -/
private def lossOfRows (a b : Fin 256 → EReal) (n : Fin 127 → Fin 256 → EReal) : EReal :=
  -Ideal.log (Ideal.div (Spec.wexp a b) (∑ s : Fin 127, Spec.wexp a (n s)))

/-- The specification's loss of graph i is that function of row i of the three arrays. -/
private theorem rowLoss_eq_lossOfRows (S P : Spec.Segs.Idx → EReal) (N : Spec.Negs.Idx → EReal) (i : Fin 2048) :
    Spec.rowLoss S P N i = lossOfRows (fun d => S (ix2 i d)) (fun d => P (ix2 i d)) (fun s d => N (ix3 i s d)) := rfl

/-- The quotient the body forms for row r of its block: the positive pair's weight (the product of the row with its
    positive row over the product of the two norms, exponentiated, over the temperature) over the sum of the 127
    negative pairs' weights, formed the same way with the row's own norm repeated along the 127. -/
private theorem quotient_at (x0 x1 : Vec Ideal S128x256 .f32) (x2 : Vec Ideal S128x127x256 .f32) (r : Fin 128) :
    k1_pay2 (F := Ideal) x0 x1 x2 (ix1 r)
      = Ideal.div (Spec.wexp (fun d => x0 (ix2 r d)) (fun d => x1 (ix2 r d)))
          (∑ s : Fin 127, Spec.wexp (fun d => x0 (ix2 r d)) (fun d => x2 (ix3 r s d))) := by
  unfold k1_pay2
  simp only [shapeCast_self]
  simp only [multiReduction, Ideal.reduceAdd_def, divf_apply, mulf_apply, maximumf_apply, broadcast_apply, sqrt_at, exp_at,
    Ideal.ofBits_def, red_lane, red_lane3, red_rows, rep_rows, rep_col]
  rfl

private theorem zero_off2 : (![0, 0] : Fin 2 → Nat) = fun _ => 0 := funext fun a => by fin_cases a <;> rfl
private theorem zero_off3 : (![0, 0, 0] : Fin 3 → Nat) = fun _ => 0 := funext fun a => by fin_cases a <;> rfl

/-- What the body leaves at column r of its 1×128 result block: the loss formed from row r of its three operand
    blocks (zero minus the logarithm of the quotient is minus that logarithm). -/
private theorem result_block_at (x0 x1 : Vec Ideal S128x256 .f32) (x2 : Vec Ideal S128x127x256 .f32) (r : Fin 128) :
    out1_3 (F := Ideal) x0 x1 x2 (ix2 (0 : Fin 1) r)
      = lossOfRows (fun d => x0 (ix2 r d)) (fun d => x1 (ix2 r d)) (fun s d => x2 (ix3 r s d)) := by
  unfold out1_3
  rw [View.canon_unit_zero zero_off2]
  simp only [View.ld_unit_zero (S := S128x256) zero_off2, View.ld_unit_zero (S := S128x127x256) zero_off3]
  unfold k1_pay1
  simp only [as_row, subf_apply, log_at, broadcast_apply, Ideal.ofBits_def, quotient_at]
  rw [Ideal.ofBits_zero_f32, sub_eq_add_neg, zero_add]
  rfl

/-! ## The blocks the body reads, as rows of the arrays -/

/-- The windows' index maps over the 16 grid points: at point t the three operand windows sit at block row t of their
    arrays, and the result window at block column t of its array. -/
private theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 3) = t.val ∧ win1_2.index t (1 : Fin 3) = 0 ∧ win1_2.index t (2 : Fin 3) = 0
    ∧ win1_3.index t (0 : Fin 2) = 0 ∧ win1_3.index t (1 : Fin 2) = t.val :=
  (by decide +kernel : ∀ t : Fin grid1.N, _)

/-- Window 0's block at point t is rows 128 t … 128 t + 127 of the first per-graph array. -/
private theorem self_block_at (c : Dev nD) (t : Fin cfg1.N) (x : S128x256.Idx) (k : S2048x256.Idx)
    (hk0 : (k 0).val = 128 * t.val + (x 0).val) (hk1 : (k 1).val = (x 1).val) :
    (iblk1 V c 0 t : Vec Ideal S128x256 .f32) x = (V c main_v3_0 : S2048x256.Idx → EReal) k := by
  obtain ⟨e0, e1, -⟩ := block_index t
  unfold iblk1
  rw [View.read_apply]
  show V c main_v3_0 _ = V c main_v3_0 _
  congr 1
  funext a
  apply Fin.ext
  match a with
  | ⟨0, _⟩ => show win1_0.index t (0 : Fin 2) * 128 + 1 * (x 0).val = (k 0).val; rw [e0, hk0]; omega
  | ⟨1, _⟩ => show win1_0.index t (1 : Fin 2) * 256 + 1 * (x 1).val = (k 1).val; rw [e1, hk1]; omega

/-- Window 1's block at point t is rows 128 t … 128 t + 127 of the second per-graph array. -/
private theorem pos_block_at (c : Dev nD) (t : Fin cfg1.N) (x : S128x256.Idx) (k : S2048x256.Idx)
    (hk0 : (k 0).val = 128 * t.val + (x 0).val) (hk1 : (k 1).val = (x 1).val) :
    (iblk1 V c 1 t : Vec Ideal S128x256 .f32) x = (V c main_v3_1 : S2048x256.Idx → EReal) k := by
  obtain ⟨-, -, e0, e1, -⟩ := block_index t
  unfold iblk1
  rw [View.read_apply]
  show V c main_v3_1 _ = V c main_v3_1 _
  congr 1
  funext a
  apply Fin.ext
  match a with
  | ⟨0, _⟩ => show win1_1.index t (0 : Fin 2) * 128 + 1 * (x 0).val = (k 0).val; rw [e0, hk0]; omega
  | ⟨1, _⟩ => show win1_1.index t (1 : Fin 2) * 256 + 1 * (x 1).val = (k 1).val; rw [e1, hk1]; omega

/-- Window 2's block at point t is the 127 comparison rows of graphs 128 t … 128 t + 127. -/
private theorem neg_block_at (c : Dev nD) (t : Fin cfg1.N) (x : S128x127x256.Idx) (k : S2048x127x256.Idx)
    (hk0 : (k 0).val = 128 * t.val + (x 0).val) (hk1 : (k 1).val = (x 1).val) (hk2 : (k 2).val = (x 2).val) :
    (iblk1 V c 2 t : Vec Ideal S128x127x256 .f32) x = (V c main_v10 : S2048x127x256.Idx → EReal) k := by
  obtain ⟨-, -, -, -, e0, e1, e2, -⟩ := block_index t
  unfold iblk1
  rw [View.read_apply]
  show V c main_v10 _ = V c main_v10 _
  congr 1
  funext a
  apply Fin.ext
  match a with
  | ⟨0, _⟩ => show win1_2.index t (0 : Fin 3) * 128 + 1 * (x 0).val = (k 0).val; rw [e0, hk0]; omega
  | ⟨1, _⟩ => show win1_2.index t (1 : Fin 3) * 127 + 1 * (x 1).val = (k 1).val; rw [e1, hk1]; omega
  | ⟨2, _⟩ => show win1_2.index t (2 : Fin 3) * 256 + 1 * (x 2).val = (k 2).val; rw [e2, hk2]; omega

/-! ## From the blocks to the array -/

/-- At point t the body leaves, at column q of its result block, the loss of graph 128 t + q. -/
private theorem loss_at_point (c : Dev nD) (t : Fin cfg1.N) (q : Fin 128) (i : Fin 2048) (hi : i.val = 128 * t.val + q.val) :
    out1_3 (F := Ideal) (iblk1 V c 0 t) (iblk1 V c 1 t) (iblk1 V c 2 t) (ix2 (0 : Fin 1) q)
      = Spec.rowLoss (V c main_v3_0) (V c main_v3_1) (V c main_v10) i := by
  refine (result_block_at (iblk1 V c 0 t) (iblk1 V c 1 t) (iblk1 V c 2 t) q).trans ?_
  rw [rowLoss_eq_lossOfRows]
  have h0 : (fun d : Fin 256 => (iblk1 V c 0 t : Vec Ideal S128x256 .f32) (ix2 q d))
      = fun d : Fin 256 => (V c main_v3_0 : S2048x256.Idx → EReal) (ix2 i d) :=
    funext fun d => self_block_at V c t (ix2 q d) (ix2 i d) hi rfl
  have h1 : (fun d : Fin 256 => (iblk1 V c 1 t : Vec Ideal S128x256 .f32) (ix2 q d))
      = fun d : Fin 256 => (V c main_v3_1 : S2048x256.Idx → EReal) (ix2 i d) :=
    funext fun d => pos_block_at V c t (ix2 q d) (ix2 i d) hi rfl
  have h2 : (fun (s : Fin 127) (d : Fin 256) => (iblk1 V c 2 t : Vec Ideal S128x127x256 .f32) (ix3 q s d))
      = fun (s : Fin 127) (d : Fin 256) => (V c main_v10 : S2048x127x256.Idx → EReal) (ix3 i s d) :=
    funext fun s => funext fun d => neg_block_at V c t (ix3 q s d) (ix3 i s d) hi rfl rfl
  rw [h0, h1, h2]

/-- The whole result array: entry (0, i) is the loss of graph i. -/
private abbrev lossArr (c : Dev nD) : S1x2048.Idx → EReal :=
  fun j => Spec.rowLoss (V c main_v3_0) (V c main_v3_1) (V c main_v10) (j 1)

/-- What point t writes back is block (0, t) of that array. -/
private theorem written_back (c : Dev nD) (t : Fin cfg1.N) :
    (dat1 (F := Ideal) V c).flushed 3 t = ((cfg1.win 3).blk t).view.read (Elt Ideal) (lossArr V c) := by
  show (cfg1.win 3).cut (grid1.coords t) ((dat1 (F := Ideal) V c).after 3 t) = _
  rw [after1_3]
  obtain ⟨-, -, -, -, -, -, -, e0, e1⟩ := block_index t
  refine funext fun (j : S1x128.Idx) => ?_
  obtain ⟨p, q, rfl⟩ : ∃ (p : Fin 1) (q : Fin 128), j = ix2 p q := ⟨j 0, j 1, eq_ix2 j⟩
  obtain rfl : p = 0 := Subsingleton.elim _ _
  refine loss_at_point V c t q ((((cfg1.win 3).blk t).view.emb (ix2 (0 : Fin 1) q)) 1) ?_
  show win1_3.index t (1 : Fin 2) * 128 + 1 * q.val = 128 * t.val + q.val
  rw [e1]; omega

/-- An index of the array is in point t's block iff each coordinate is in the block's range on its axis. -/
private theorem mem_result_block (t : Fin cfg1.N) (i : S1x2048.Idx) :
    i ∈ ((cfg1.win 3).blk t).view.set ↔ ∀ a : Fin 2, win1_3.index t a * S1x128.size a ≤ (i a).val ∧ (i a).val < win1_3.index t a * S1x128.size a + S1x128.size a := by
  show i ∈ ((View.whole main_v11).slice (win1_3.rect t)).set ↔ _
  rw [View.set_slice_whole, Rect.mem_set_unit]
  exact Iff.rfl

/-- Column i of the array lies in the block of point i / 128, and every point writes its block back. -/
private theorem result_blocks_cover (i : S1x2048.Idx) :
    ∃ t : Fin cfg1.N, (cfg1.win 3).flush t = true ∧ i ∈ ((cfg1.win 3).blk t).view.set := by
  have hN : cfg1.N = 16 := N_1
  have hi0 : (i 0).val < 1 := (i 0).isLt
  have hi1 : (i 1).val < 2048 := (i 1).isLt
  obtain ⟨t, ht⟩ : ∃ t : Fin cfg1.N, t.val = (i 1).val / 128 := ⟨⟨(i 1).val / 128, by rw [hN]; omega⟩, rfl⟩
  obtain ⟨-, -, -, -, -, -, -, e0, e1⟩ := block_index t
  refine ⟨t, flush1_3 t, ?_⟩
  rw [mem_result_block]
  intro a
  match a with
  | ⟨0, _⟩ => show win1_3.index t (0 : Fin 2) * 1 ≤ (i 0).val ∧ (i 0).val < win1_3.index t (0 : Fin 2) * 1 + 1; rw [e0]; omega
  | ⟨1, _⟩ => show win1_3.index t (1 : Fin 2) * 128 ≤ (i 1).val ∧ (i 1).val < win1_3.index t (1 : Fin 2) * 128 + 128; rw [e1, ht]; omega

theorem arr (c : Dev nD) :
    (dat1 (F := Ideal) V c).arrAt 3 cfg1.N
      = fun j : S1x2048.Idx => Spec.rowLoss (V c main_v3_0) (V c main_v3_1) (V c main_v10) (j 1) :=
  (dat1 (F := Ideal) V c).arrAt_eq_of_cover 3 (lossArr V c) (fun t _ => written_back V c t) result_blocks_cover

end Cert.KernelIdeal.LossArray

end
-- ==== Proof.KernelValue.lean ====
/-
  The idealized kernel's scalar result as a value.  Walking @main's five stretches from the launch memory:
  the first host stretch joins the two index vectors into the columns of a 200000 × 2 array; the segment-sum
  region leaves the two per-graph sums; the second host stretch gathers the 127 comparison rows of every graph
  from the second sum; the contrastive region leaves each graph's loss; the last host stretch averages them.
-/
import proofs.«406492_j75496935129282_4_alg».proof.Proof.Gen.KernelIdeal.Frame
import proofs.«406492_j75496935129282_4_alg».proof.Proof.Spec
import proofs.«406492_j75496935129282_4_alg».proof.Proof.SegArray
import proofs.«406492_j75496935129282_4_alg».proof.Proof.LossArray
import Idealize.ShloMosaic.Lib.StableHlo.Run
import Idealize.ShloMosaic.Lib.Pipeline.Value
import Idealize.ShloMosaic.PureOps.Ideal.Laws

noncomputable section

namespace Cert.KernelIdeal.KValue

open Cert.KernelIdeal Cert.KernelIdeal.Gen
open Idealize.ShloMosaic Idealize.ShloMosaic.TcCoe Idealize.ShloMosaic.ValueIdx Idealize.SL.Sem
open Idealize.ShloMosaic.StableHlo
open Idealize.ShloMosaic.Pipeline (Dat)

variable (m : (ℓ : Loc nD τ sig) → Buf (Elt Ideal) ℓ) (ρ : Dev nD → PrngReg)

/-- The comparison rows: row (i, s) is the row of `P` that the index word `x4 (i, s)` names, a negative word
    counted from the end. (The host operations that compute it, kept as one term.) -/
def negRows (P : FVec Ideal S2048x256 .f32) (x4 : IVec S2048x127 32) : FVec Ideal S2048x127x256 .f32 :=
  Host.gather gather_S2048x256_S2048x127x1_S2048x127x256_2_0_n_n_0_2_1256 P
    (broadcastInDim S2048x127x1 ![0, 1] bcast_S2048x127_S2048x127x1_0_1
      (select (cmpi .slt x4 (broadcastInDim S2048x127 ![] bcast_S_S2048x127 (constantI S_ 32 0#32)))
        (addi x4 (broadcastInDim S2048x127 ![] bcast_S_S2048x127 (constantI S_ 32 2048#32))) x4))

/-! ## The first host stretch -/

theorem V1_arg0 (c : Dev nD) : V1 m ρ c main_arg0 = m ((c : Thread nD τ).loc main_arg0) := by
  show StableHlo.after hostOps0 (W0 m ρ c) (Proc.devRef .tc main_arg0) = _
  after_results

theorem V1_arg1 (c : Dev nD) : V1 m ρ c main_arg1 = m ((c : Thread nD τ).loc main_arg1) := by
  show StableHlo.after hostOps0 (W0 m ρ c) (Proc.devRef .tc main_arg1) = _
  after_results

theorem V1_arg4 (c : Dev nD) : V1 m ρ c main_arg4 = m ((c : Thread nD τ).loc main_arg4) := by
  show StableHlo.after hostOps0 (W0 m ρ c) (Proc.devRef .tc main_arg4) = _
  after_results

theorem V1_v2 (c : Dev nD) : (V1 m ρ c main_v2 : S200000x2.Idx → BitVec 32)
    = concatenate S200000x2 1 [⟨S200000x1, shapeCast S200000x1 (m ((c : Thread nD τ).loc main_arg2)) shapeCasts_S200000_S200000x1⟩,
        ⟨S200000x1, shapeCast S200000x1 (m ((c : Thread nD τ).loc main_arg3)) shapeCasts_S200000_S200000x1⟩]
        concatenates_S200000x1_S200000x1_S200000x2_d1 := by
  show StableHlo.after hostOps0 (W0 m ρ c) (Proc.devRef .tc main_v2) = _
  after_results
  rfl

/-- Column 0 of the joined index array is the first index vector, -/
theorem V1_v2_col0 (c : Dev nD) (n : Fin 200000) :
    (V1 m ρ c main_v2 : S200000x2.Idx → BitVec 32) (ix2 n 0) = m ((c : Thread nD τ).loc main_arg2) (ix1 n) := by
  rw [V1_v2]
  refine (concatenate_pair_apply_left (t := S200000x2) (s₁ := S200000x1) (s₂ := S200000x1) (1 : Fin 2) _ _
    concatenates_S200000x1_S200000x1_S200000x2_d1 (ix2 n (0 : Fin 2) : S200000x2.Idx) rfl
    (ix2 n (0 : Fin 1) : S200000x1.Idx) (fun b => by match b with | ⟨0, _⟩ => rfl | ⟨1, _⟩ => rfl)).trans ?_
  exact shapeCast_apply _ shapeCasts_S200000_S200000x1 (ix2 n 0) (ix1 n)
    (by rw [Shape.rowMajor_val_two, Shape.rowMajor_val_one]; show n.val = n.val * 1 + 0; omega)

/-- and column 1 the second. -/
theorem V1_v2_col1 (c : Dev nD) (n : Fin 200000) :
    (V1 m ρ c main_v2 : S200000x2.Idx → BitVec 32) (ix2 n 1) = m ((c : Thread nD τ).loc main_arg3) (ix1 n) := by
  rw [V1_v2]
  refine (concatenate_pair_apply_right (t := S200000x2) (s₁ := S200000x1) (s₂ := S200000x1) (1 : Fin 2) _ _
    concatenates_S200000x1_S200000x1_S200000x2_d1 (ix2 n (1 : Fin 2) : S200000x2.Idx) rfl rfl
    (ix2 n (0 : Fin 1) : S200000x1.Idx)
    (fun b hb => by match b with | ⟨0, _⟩ => rfl | ⟨1, _⟩ => exact absurd rfl hb) rfl).trans ?_
  exact shapeCast_apply _ shapeCasts_S200000_S200000x1 (ix2 n 0) (ix1 n)
    (by rw [Shape.rowMajor_val_two, Shape.rowMajor_val_one]; show n.val = n.val * 1 + 0; omega)

/-! ## The segment-sum region's exit -/

/-- The first per-graph sum, from the first node array and the first index vector. -/
abbrev sumS (c : Dev nD) : Spec.Segs.Idx → EReal :=
  Spec.segArr (m ((c : Thread nD τ).loc main_arg0)) (fun n => m ((c : Thread nD τ).loc main_arg2) (ix1 n))
/-- The second, from the second node array and the second index vector. -/
abbrev sumP (c : Dev nD) : Spec.Segs.Idx → EReal :=
  Spec.segArr (m ((c : Thread nD τ).loc main_arg1)) (fun n => m ((c : Thread nD τ).loc main_arg3) (ix1 n))

theorem W2_v3_0 (c : Dev nD) (xr : S200000x256.Idx → ℝ)
    (hx : (m ((c : Thread nD τ).loc main_arg0) : S200000x256.Idx → EReal) = fun i => ((xr i : ℝ) : EReal)) :
    (W2 m ρ c (Proc.devRef .tc main_v3_0) : S2048x256.Idx → EReal) = sumS m c := by
  refine (W2_arr m ρ c 3).trans ?_
  rw [SegArray.arr3 (V1 m ρ) c xr (by rw [V1_arg0]; exact hx), V1_arg0]
  exact congrArg _ (funext fun n => V1_v2_col0 m ρ c n)

theorem W2_v3_1 (c : Dev nD) (xr : S200000x256.Idx → ℝ)
    (hx : (m ((c : Thread nD τ).loc main_arg1) : S200000x256.Idx → EReal) = fun i => ((xr i : ℝ) : EReal)) :
    (W2 m ρ c (Proc.devRef .tc main_v3_1) : S2048x256.Idx → EReal) = sumP m c := by
  refine (W2_arr m ρ c 4).trans ?_
  rw [SegArray.arr4 (V1 m ρ) c xr (by rw [V1_arg1]; exact hx), V1_arg1]
  exact congrArg _ (funext fun n => V1_v2_col1 m ρ c n)

theorem W2_arg4 (c : Dev nD) : W2 m ρ c (Proc.devRef .tc main_arg4) = m ((c : Thread nD τ).loc main_arg4) :=
  (W2_of_ne m ρ c main_arg4 (by decide)).trans (V1_arg4 m ρ c)

/-! ## The second host stretch -/

theorem V3_v3_0 (c : Dev nD) : V3 m ρ c main_v3_0 = W2 m ρ c (Proc.devRef .tc main_v3_0) := by
  show StableHlo.after hostOps1 (W2 m ρ c) (Proc.devRef .tc main_v3_0) = _
  after_results

theorem V3_v3_1 (c : Dev nD) : V3 m ρ c main_v3_1 = W2 m ρ c (Proc.devRef .tc main_v3_1) := by
  show StableHlo.after hostOps1 (W2 m ρ c) (Proc.devRef .tc main_v3_1) = _
  after_results

theorem V3_v10 (c : Dev nD) : V3 m ρ c main_v10
    = negRows (W2 m ρ c (Proc.devRef .tc main_v3_1)) (W2 m ρ c (Proc.devRef .tc main_arg4)) := by
  show StableHlo.after hostOps1 (W2 m ρ c) (Proc.devRef .tc main_v10) = _
  after_results
  rfl

/-! ## The contrastive region's exit and the last host stretch -/

theorem W4_v11 (c : Dev nD) : (W4 m ρ c (Proc.devRef .tc main_v11) : S1x2048.Idx → EReal)
    = fun j => Spec.rowLoss (V3 m ρ c main_v3_0) (V3 m ρ c main_v3_1) (V3 m ρ c main_v10) (j 1) :=
  (W4_arr m ρ c 3).trans (LossArray.arr (V3 m ρ) c)

theorem W5_v13 (c : Dev nD) : (W5 m ρ c (Proc.devRef .tc main_v13) : S_.Idx → EReal)
    = (Host.divf (F := Ideal) (Host.reduceAdd (W4 m ρ c (Proc.devRef .tc main_v11) : S1x2048.Idx → EReal)
        (constant S_ .f32 0x00000000#32) reducesTo_S1x2048_S_d0_1 h_S_) (constant S_ .f32 0x45000000#32) : S_.Idx → EReal) := by
  show StableHlo.after hostOps2 (W4 m ρ c) (Proc.devRef .tc main_v13) = _
  after_results

/-- A sum over the indices of a 1 × 2048 array of a function of the column is the sum over the 2048 columns. -/
theorem sum_row (f : Fin 2048 → EReal) : ∑ i : S1x2048.Idx, f (i 1) = ∑ k : Fin 2048, f k := by
  refine Fintype.sum_equiv ⟨fun i => i 1, fun k => ix2 (0 : Fin 1) k, ?_, ?_⟩ _ _ (fun _ => rfl)
  · intro i
    funext a
    match a with
    | ⟨0, _⟩ => exact Fin.ext (by have h1 : (i 0).val < 1 := (i 0).isLt; show 0 = (i 0).val; omega)
    | ⟨1, _⟩ => rfl
  · intro k; rfl

/-- The last host stretch on a row of per-graph losses: their sum from zero, divided by the count. -/
theorem tail_eq (f : Fin 2048 → EReal) (i : S_.Idx) :
    Host.divf (F := Ideal) (Host.reduceAdd (fun j : S1x2048.Idx => f (j 1)) (constant S_ .f32 0x00000000#32)
        reducesTo_S1x2048_S_d0_1 h_S_) (constant S_ .f32 0x45000000#32) i
      = Ideal.div (∑ k : Fin 2048, f k) Spec.count := by
  show Ideal.div (Ideal.hostReduceAdd reducesTo_S1x2048_S_d0_1 (fun j : S1x2048.Idx => f (j 1)) (Ideal.ofBits .f32 0x00000000#32) i)
    (Ideal.ofBits .f32 0x45000000#32) = _
  rw [Ideal.hostReduceAdd_total _ (fun b => b.elim0), Ideal.ofBits_zero_f32, zero_add, sum_row]
  rfl

/-- THE KERNEL'S RESULT: the mean loss of the two per-graph sums and the comparison rows gathered from the second. -/
theorem result_eq (c : Dev nD) (xr0 xr1 : S200000x256.Idx → ℝ)
    (hx0 : (m ((c : Thread nD τ).loc main_arg0) : S200000x256.Idx → EReal) = fun i => ((xr0 i : ℝ) : EReal))
    (hx1 : (m ((c : Thread nD τ).loc main_arg1) : S200000x256.Idx → EReal) = fun i => ((xr1 i : ℝ) : EReal)) :
    (W5 m ρ c (Proc.devRef .tc main_v13) : S_.Idx → EReal)
      = fun _ => Spec.loss (sumS m c) (sumP m c) (negRows (sumP m c) (m ((c : Thread nD τ).loc main_arg4))) := by
  funext i
  rw [W5_v13, W4_v11, V3_v3_0, V3_v3_1, V3_v10, W2_v3_0 m ρ c xr0 hx0, W2_v3_1 m ρ c xr1 hx1, W2_arg4]
  exact tail_eq _ i

end Cert.KernelIdeal.KValue

end
-- ==== Proof.RefStages.lean ====
/-
  The reference's run read one operation at a time: the stages the value proof cites.
-/
import proofs.«406492_j75496935129282_4_alg».proof.Proof.Gen.ReferenceIdeal.Run
import proofs.«406492_j75496935129282_4_alg».proof.Proof.Gen.ReferenceIdeal.Read
-- ==== Proof.RefLoss.lean ====
/-
  The reference's result stage is the mean loss of its two per-graph sums and its gathered comparison rows.
-/
import proofs.«406492_j75496935129282_4_alg».proof.Proof.RefStages
import proofs.«406492_j75496935129282_4_alg».proof.Proof.Spec
import Idealize.ShloMosaic.Lib.ValueIdxRank1

noncomputable section

namespace Cert.ReferenceIdeal.RefLoss

open Cert.ReferenceIdeal Cert.ReferenceIdeal.Gen Cert.ReferenceIdeal.Read
open Idealize.ShloMosaic Idealize.ShloMosaic.TcCoe Idealize.ShloMosaic.ValueIdx

/-! The reference lays, for each graph `i`, 128 rows of 256 coordinates side by side: row 0 is the graph's own
    row of the second per-graph sums, rows 1 … 127 are the 127 gathered comparison rows. Against every one of
    the 128 rows it takes the cosine similarity with row `i` of the first per-graph sums, exponentiates and
    divides by ten; column 0 is the numerator, the sum of columns 1 … 127 the denominator. The lemmas below read
    these arrays entry by entry, from the 128 rows up to the mean, over the three stages kept as they are. -/

section Stages

variable (x0 x1 : (⟨S200000x256, .f32⟩ : BufTy).Contents (Elt Ideal)) (x2 x3 : (⟨S200000, .i32⟩ : BufTy).Contents (Elt Ideal))
    (x4 : (⟨S2048x127, .i32⟩ : BufTy).Contents (Elt Ideal))

/-- Row 0 of graph `i`'s 128 rows is row `i` of the second per-graph sums: position 0 on the joined axis lies in
    the first piece (of extent one), which is those sums with a unit axis inserted. -/
private theorem v14_first (i : Fin 2048) (d : Fin 256) :
    val_main_v14 (F := Ideal) x1 x3 x4 (ix3 i (0 : Fin 128) d) = val_main_v5 (F := Ideal) x1 x3 (ix2 i d) := by
  unfold val_main_v14
  rw [concatenate_pair_apply_left (t := S2048x128x256) (s₁ := S2048x1x256) (s₂ := S2048x127x256) (1 : Fin 3) _ _ _
    (ix3 i (0 : Fin 128) d) rfl (ix3 i (0 : Fin 1) d)
    (fun b => by match b with | ⟨0, _⟩ => rfl | ⟨1, _⟩ => rfl | ⟨2, _⟩ => rfl)]
  rw [val_main_v6_apply]
  exact congrArg _ (funext fun a => Fin.ext (by match a with | ⟨0, _⟩ => rfl | ⟨1, _⟩ => rfl))

/-- Row `s + 1` of graph `i`'s 128 rows is its gathered row `s`: position `s + 1` on the joined axis lies in the
    second piece, the first piece's extent (one) further on. -/
private theorem v14_rest (i : Fin 2048) (s : Fin 127) (d : Fin 256) :
    val_main_v14 (F := Ideal) x1 x3 x4 (ix3 i (⟨s.val + 1, by omega⟩ : Fin 128) d)
      = val_main_v13 (F := Ideal) x1 x3 x4 (ix3 i s d) := by
  unfold val_main_v14
  exact concatenate_pair_apply_right (t := S2048x128x256) (s₁ := S2048x1x256) (s₂ := S2048x127x256) (1 : Fin 3) _ _ _
    (ix3 i (⟨s.val + 1, by omega⟩ : Fin 128) d) rfl rfl (ix3 i s d)
    (fun b hb => by match b, hb with | ⟨0, _⟩, _ => rfl | ⟨1, _⟩, hb => exact absurd rfl hb | ⟨2, _⟩, _ => rfl)
    rfl

/-- Entry `(i, k)` of the weights is the exponential weight of row `i` of the first per-graph sums against row `k`
    of graph `i`'s 128 rows: the inner product of the two over the product of their norms (each the root of the
    sum of squares, kept above ε), exponentiated and divided by ten. The sums start from the zero word, which adds
    nothing; the row of the first sums is the same for all 128 columns (it is broadcast along that axis). -/
private theorem v31_at (i : Fin 2048) (k : Fin 128) :
    val_main_v31 (F := Ideal) x0 x1 x2 x3 x4 (ix2 i k)
      = Spec.wexp (fun d => val_main_v2 (F := Ideal) x0 x2 (ix2 i d))
          (fun d => val_main_v14 (F := Ideal) x1 x3 x4 (ix3 i k d)) := by
  have e18 : ∀ d : Fin 256, idx_main_v18 (ix2 i k) d = ix3 i k d := fun d =>
    funext fun a => Fin.ext (by match a with | ⟨0, _⟩ => rfl | ⟨1, _⟩ => rfl | ⟨2, _⟩ => rfl)
  have e15 : ∀ d : Fin 256, idx_main_v15 (idx_main_v16 (ix3 i k d)) = ix2 i d := fun d =>
    funext fun a => Fin.ext (by match a with | ⟨0, _⟩ => rfl | ⟨1, _⟩ => rfl)
  have ec0 : ∀ d : Fin 256, idx_main_call0_v1 (idx_main_v22 (idx_main_v26 (ix2 i k))) d = ix2 i d := fun d =>
    funext fun a => Fin.ext (by match a with | ⟨0, _⟩ => rfl | ⟨1, _⟩ => rfl)
  have ec1 : ∀ d : Fin 256, idx_main_call1_v1 (ix2 i k) d = ix3 i k d := fun d =>
    funext fun a => Fin.ext (by match a with | ⟨0, _⟩ => rfl | ⟨1, _⟩ => rfl | ⟨2, _⟩ => rfl)
  rw [val_main_v31_apply, val_main_v29_apply, val_main_v28_apply, val_main_v18_apply, val_main_v27_apply,
    val_main_v26_apply, val_main_v22_apply, val_main_v21_apply, val_main_v19_apply, val_main_call0_v1_apply,
    val_main_v25_apply, val_main_v23_apply, val_main_call1_v1_apply, val_main_v30_apply, val_main_v20_apply,
    val_main_v24_apply]
  simp only [val_main_v17_apply, val_main_v16_apply, val_main_v15_apply, val_main_call0_v0_apply,
    val_main_call1_v0_apply, val_main_cst_2_apply, val_main_call0_cst_apply, val_main_call1_cst_apply,
    val_main_cst_3_apply, val_main_cst_4_apply, val_main_cst_5_apply, e18, e15, ec0, ec1,
    Ideal.hostDivf_def, Ideal.hostUnary_exp_def, Ideal.hostUnary_sqrt_def, Ideal.mulf_def, Ideal.maximumf_def,
    Ideal.ofBits_def, Ideal.ofBits_zero_f32, zero_add]
  rfl

/-- The numerator of graph `i` is column 0 of its weights. -/
private theorem v33_at (i : Fin 2048) :
    val_main_v33 (F := Ideal) x0 x1 x2 x3 x4 (ix1 i)
      = val_main_v31 (F := Ideal) x0 x1 x2 x3 x4 (ix2 i (0 : Fin 128)) := by
  rw [val_main_v33_apply, val_main_v32_apply]
  exact congrArg _ (funext fun a => Fin.ext (by match a with | ⟨0, _⟩ => exact Nat.div_one _ | ⟨1, _⟩ => rfl))

/-- The denominator of graph `i` is the sum of columns 1 … 127 of its weights, column `s + 1` for `s` below 127. -/
private theorem v35_at (i : Fin 2048) :
    val_main_v35 (F := Ideal) x0 x1 x2 x3 x4 (ix1 i)
      = ∑ s : Fin 127, val_main_v31 (F := Ideal) x0 x1 x2 x3 x4 (ix2 i (⟨s.val + 1, by omega⟩ : Fin 128)) := by
  have e34 : ∀ s : Fin 127, idx_main_v34 (idx_main_v35 (ix1 i) s) = ix2 i (⟨s.val + 1, by omega⟩ : Fin 128) := fun s =>
    funext fun a => Fin.ext (by match a with | ⟨0, _⟩ => rfl | ⟨1, _⟩ => exact Nat.add_comm 1 s.val)
  rw [val_main_v35_apply]
  simp only [val_main_v34_apply, val_main_cst_6_apply, e34, Ideal.ofBits_def, Ideal.ofBits_zero_f32, zero_add]

/-- Entry `i` of the negated logarithms is the loss of graph `i`: column 0 weighs the graph's row of the first sums
    against its row of the second sums, column `s + 1` against its gathered row `s`. -/
private theorem v38_at (i : Fin 2048) :
    val_main_v38 (F := Ideal) x0 x1 x2 x3 x4 (ix1 i)
      = Spec.rowLoss (val_main_v2 (F := Ideal) x0 x2) (val_main_v5 (F := Ideal) x1 x3)
          (val_main_v13 (F := Ideal) x1 x3 x4) i := by
  rw [val_main_v38_apply, val_main_v37_apply, val_main_v36_apply, v33_at, v35_at]
  simp only [v31_at, v14_first, v14_rest, Ideal.hostNegf_def, Ideal.negf_def, Ideal.hostUnary_log_def,
    Ideal.hostDivf_def]
  rfl

end Stages

/-- The result: the sum of the 2048 graphs' losses (a sum over the one-axis index set, which is its coordinate's
    range; the zero word it starts from adds nothing) divided by 2048. -/
theorem result_eq (x0 x1 : (⟨S200000x256, .f32⟩ : BufTy).Contents (Elt Ideal)) (x2 x3 : (⟨S200000, .i32⟩ : BufTy).Contents (Elt Ideal))
    (x4 : (⟨S2048x127, .i32⟩ : BufTy).Contents (Elt Ideal)) (i : S_.Idx) :
    val_main_v40 (F := Ideal) x0 x1 x2 x3 x4 i
      = Spec.loss (val_main_v2 (F := Ideal) x0 x2) (val_main_v5 (F := Ideal) x1 x3) (val_main_v13 (F := Ideal) x1 x3 x4) := by
  have hsum : ∑ j : S2048.Idx, val_main_v38 (F := Ideal) x0 x1 x2 x3 x4 j
      = ∑ r : Fin 2048, val_main_v38 (F := Ideal) x0 x1 x2 x3 x4 (ix1 r) :=
    (Equiv.sum_comp (idxEquiv1 (n := 2048)).symm _).symm
  rw [val_main_v40_apply, val_main_v39_apply, val_main_cst_7_apply, val_main_cst_8_apply, hsum]
  simp only [v38_at, Ideal.hostDivf_def, Ideal.ofBits_def, Ideal.ofBits_zero_f32, zero_add]
  rfl

end Cert.ReferenceIdeal.RefLoss

end
-- ==== Proof.ScatterLaw.lean ====
/-
  The host's accumulating scatter of the node rows into a zero array, indexed by each node's index word, is the
  per-graph sum: a row lands on graph g exactly when its index word is g (a word outside 0 … 2047 lands nowhere).
-/
import proofs.«406492_j75496935129282_4_alg».proof.Proof.RefStages
import proofs.«406492_j75496935129282_4_alg».proof.Proof.Spec

noncomputable section

namespace Cert.ReferenceIdeal.ScatterLaw

open Cert.ReferenceIdeal Cert.ReferenceIdeal.Gen Cert.ReferenceIdeal.Read
open Idealize.ShloMosaic Idealize.ShloMosaic.TcCoe Idealize.ShloMosaic.ValueIdx

/-- An update element lands on operand element `i` exactly when, on every operand axis, its window's start plus
    its window coordinate is `i`'s coordinate: an element that would land outside lands nowhere, and no coordinate
    of `i` is outside. -/
private theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hfi a
      rw [← hfi]
      have := h a
      show _ = (((d.start j idx a + (d.window j a : Int)).toNat : Nat) : Int)
      omega
    · intro hall
      funext a
      apply Fin.ext
      show (d.start j idx a + (d.window j a : Int)).toNat = (i a).val
      have := hall a
      omega
  · rename_i h
    constructor
    · intro hc; exact absurd hc (by simp)
    · intro hall
      exfalso
      apply h
      intro a
      have := hall a
      have := (i a).isLt
      omega

/-- The scatter's dimension numbers: the node axis of the updates is scattered along the graph axis of the
    operand by the one index word of the node, the coordinate axis is the window. -/
private abbrev D := scatter_S2048x256_S200000x1_S200000x256_1_0_0_1

/-- Update element `(n, d')` reads its start index at `(n, 0)` of the index array. -/
private theorem siIdx0 (j : S200000x256.Idx) (c : Fin D.scatterDimsToOperandDims.length) :
    D.siIdx j c = ix2 (j 0) 0 := by
  funext b
  match b with
  | ⟨0, _⟩ => rfl
  | ⟨1, _⟩ =>
    apply Fin.ext
    have := c.isLt
    show c.val = 0
    have h1 : D.scatterDimsToOperandDims.length = 1 := rfl
    omega

/-- On the graph axis the window starts at the node's index word read as a signed integer … -/
private theorem start0 {w : Nat} (j : S200000x256.Idx) (idx : IVec S200000x1 w) :
    D.start j idx 0 = (idx (ix2 (j 0) 0)).toInt := by
  have h : D.start j idx 0 = (idx (D.siIdx j ⟨0, by decide⟩)).toInt := rfl
  rw [h, siIdx0]
  rfl
/-- … and on the coordinate axis at zero; -/
private theorem start1 {w : Nat} (j : S200000x256.Idx) (idx : IVec S200000x1 w) :
    D.start j idx 1 = 0 := rfl
/-- the window coordinate is zero on the graph axis and the element's coordinate on the coordinate axis. -/
private theorem window0 (j : S200000x256.Idx) : D.window j 0 = 0 := rfl
private theorem window1 (j : S200000x256.Idx) : D.window j 1 = (j 1).val := rfl

/-- A 32-bit word read signed is the number `g` below 2048 exactly when it is the word of `g`. -/
private theorem toInt_eq_iff (v : BitVec 32) (g : Nat) (hg : g < 2048) :
    v.toInt = (g : Int) ↔ v = BitVec.ofNat 32 g := by
  have hmod : g % 2 ^ 32 = g := Nat.mod_eq_of_lt (by omega)
  constructor
  · intro h
    apply BitVec.eq_of_toNat_eq
    rw [BitVec.toNat_ofNat, hmod]
    rw [BitVec.toInt_eq_toNat_cond] at h
    have := v.isLt
    split at h <;> omega
  · intro h
    rw [h, BitVec.toInt_eq_toNat_cond, BitVec.toNat_ofNat, hmod, if_pos (by omega)]

/-- Update element `(n, d')` lands on `(g, d)` exactly when node `n`'s index word is `g` and `d' = d`. -/
private theorem lands_iff (w : (⟨S200000, .i32⟩ : BufTy).Contents (Elt Ideal)) (n : Fin 200000) (d' d : Fin 256) (g : Fin 2048) :
    D.resultIdx? (ix2 n d') (val_main_v1 (F := Ideal) w) = some (ix2 g d)
      ↔ w (ix1 n) = BitVec.ofNat 32 g.val ∧ d' = d := by
  have hs0 : D.start (ix2 n d') (val_main_v1 (F := Ideal) w) 0 = (w (ix1 n)).toInt := by
    rw [start0, val_main_v1_apply]
    have e2 : idx_main_v1 (ix2 n (0 : Fin 1)) = ix1 n := by
      funext a; match a with | ⟨0, _⟩ => rfl
    exact congrArg (fun t => (w t).toInt) e2
  have hw1 : D.window (ix2 n d') 1 = d'.val := window1 _
  have hi0 : ((ix2 g d : S2048x256.Idx) 0).val = g.val := rfl
  have hi1 : ((ix2 g d : S2048x256.Idx) 1).val = d.val := rfl
  rw [resultIdx?_eq_some_iff, ← toInt_eq_iff _ g.val g.isLt]
  constructor
  · intro h
    have h0 := h 0
    have h1 := h 1
    rw [hs0, window0, hi0] at h0
    rw [start1, hw1, hi1] at h1
    exact ⟨by omega, Fin.ext (by omega)⟩
  · rintro ⟨h0, rfl⟩ a
    match a with
    | ⟨0, _⟩ =>
      show D.start (ix2 n d') (val_main_v1 (F := Ideal) w) 0 + ((D.window (ix2 n d') 0 : Nat) : Int) = (((ix2 g d' : S2048x256.Idx) 0).val : Int)
      rw [hs0, window0, hi0]; omega
    | ⟨1, _⟩ =>
      show D.start (ix2 n d') (val_main_v1 (F := Ideal) w) 1 + ((D.window (ix2 n d') 1 : Nat) : Int) = (((ix2 g d' : S2048x256.Idx) 1).val : Int)
      rw [start1, hw1];
      show (0 : Int) + (d'.val : Int) = (d'.val : Int)
      omega

/-- The scatter into an array of zeros is the per-graph sum. -/
private theorem scatter_eq (x : (⟨S200000x256, .f32⟩ : BufTy).Contents (Elt Ideal))
    (w : (⟨S200000, .i32⟩ : BufTy).Contents (Elt Ideal)) (z : (⟨S2048x256, .f32⟩ : BufTy).Contents (Elt Ideal))
    (hz : ∀ i, z i = 0) :
    Host.scatterAdd (F := Ideal) (φ := .f32) D z (val_main_v1 (F := Ideal) w) x = Spec.segArr x (fun n => w (ix1 n)) := by
  funext i
  obtain ⟨g, d, rfl⟩ : ∃ g d, i = ix2 g d := ⟨i 0, i 1, eq_ix2 i⟩
  show z (ix2 g d) + ∑ j ∈ Finset.univ.filter (fun j => D.resultIdx? j (val_main_v1 (F := Ideal) w) = some (ix2 g d)), x j
      = ∑ n : Fin 200000, if w (ix1 n) = BitVec.ofNat 32 g.val then x (ix2 n d) else 0
  rw [hz, zero_add, Finset.sum_filter, sum_idx2]
  refine Finset.sum_congr rfl (fun n _ => ?_)
  by_cases hw : w (ix1 n) = BitVec.ofNat 32 g.val
  · rw [if_pos hw, Finset.sum_eq_single d]
    · rw [if_pos ((lands_iff w n d d g).2 ⟨hw, rfl⟩)]
    · intro d' _ hne
      rw [if_neg (fun h => hne ((lands_iff w n d' d g).1 h).2)]
    · intro h; exact absurd (Finset.mem_univ d) h
  · rw [if_neg hw]
    apply Finset.sum_eq_zero
    intro d' _
    rw [if_neg (fun h => hw ((lands_iff w n d' d g).1 h).1)]

theorem v2_eq (x : (⟨S200000x256, .f32⟩ : BufTy).Contents (Elt Ideal)) (w : (⟨S200000, .i32⟩ : BufTy).Contents (Elt Ideal)) :
    val_main_v2 (F := Ideal) x w = Spec.segArr x (fun n => w (ix1 n)) := by
  unfold val_main_v2
  apply scatter_eq
  intro i
  rw [val_main_v0_apply, val_main_cst_apply]
  exact Ideal.ofBits_zero_f32

theorem v5_eq (x : (⟨S200000x256, .f32⟩ : BufTy).Contents (Elt Ideal)) (w : (⟨S200000, .i32⟩ : BufTy).Contents (Elt Ideal)) :
    val_main_v5 (F := Ideal) x w = Spec.segArr x (fun n => w (ix1 n)) := by
  unfold val_main_v5
  apply scatter_eq
  intro i
  rw [val_main_v3_apply, val_main_cst_0_apply]
  exact Ideal.ofBits_zero_f32

end Cert.ReferenceIdeal.ScatterLaw

end
-- ==== Proof.lean ====
/-
  The proof of `Cert.Claim`: both printed programs — a two-kernel program that sums node rows into per-graph rows by
  indicator-weighted matrix products and then computes a cosine-similarity contrastive loss per graph, and the
  reference that does the same with a scatter-add and array operations — terminate without fault with their
  arguments unchanged, and over the extended reals their scalar results are equal.

  The frames of the two kernel programs are the generated frame certificates; the reference's is its run with
  the result dropped.  The idealization rewrote two round trips through a narrower format into the identity,
  which at exact arithmetic they are.  For the equality of results both sides are brought to one formula,
  `Spec.loss`: the kernel's accumulated products are the per-graph sums because every node entry is a real number
  under the precondition (an indicator weight times a real, and a real minus itself, are exact), the reference's
  scatter-add is the same sum by re-indexing, and everything after the per-graph sums is the same chain of
  operations on both sides, read index by index.
-/
import proofs.«406492_j75496935129282_4_alg».proof.Defs
import proofs.«406492_j75496935129282_4_alg».proof.Proof.Gen.Kernel
import proofs.«406492_j75496935129282_4_alg».proof.Proof.Gen.Kernel.Skeleton
import proofs.«406492_j75496935129282_4_alg».proof.Proof.Gen.Kernel.Launch
import proofs.«406492_j75496935129282_4_alg».proof.Proof.Gen.Kernel.Points
import proofs.«406492_j75496935129282_4_alg».proof.Proof.Gen.Kernel.Frame
import proofs.«406492_j75496935129282_4_alg».proof.Proof.Gen.KernelIdeal
import proofs.«406492_j75496935129282_4_alg».proof.Proof.Gen.KernelIdeal.Skeleton
import proofs.«406492_j75496935129282_4_alg».proof.Proof.Gen.KernelIdeal.Launch
import proofs.«406492_j75496935129282_4_alg».proof.Proof.Gen.KernelIdeal.Points
import proofs.«406492_j75496935129282_4_alg».proof.Proof.Gen.KernelIdeal.Frame
import proofs.«406492_j75496935129282_4_alg».proof.Proof.Gen.ReferenceIdeal
import proofs.«406492_j75496935129282_4_alg».proof.Proof.Gen.ReferenceIdeal.Run
import proofs.«406492_j75496935129282_4_alg».proof.Proof.Gen.ReferenceIdeal.Read
import proofs.«406492_j75496935129282_4_alg».proof.Proof.Gen.Pre_finite_inputs
import proofs.«406492_j75496935129282_4_alg».proof.Proof.Spec
import proofs.«406492_j75496935129282_4_alg».proof.Proof.Finite
import proofs.«406492_j75496935129282_4_alg».proof.Proof.KernelRun
import proofs.«406492_j75496935129282_4_alg».proof.Proof.KernelValue
import proofs.«406492_j75496935129282_4_alg».proof.Proof.RefStages
import proofs.«406492_j75496935129282_4_alg».proof.Proof.RefLoss
import proofs.«406492_j75496935129282_4_alg».proof.Proof.ScatterLaw
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The two rewritten round trips: widening after narrowing is the identity on extended reals. -/
theorem preserves : Cert.preserves_Kernel_KernelIdeal :=
  ⟨IdealRules.truncf_extf.statement _ _ _, IdealRules.truncf_extf.statement _ _ _⟩

/-- The comparison rows are gathered by the same host operations on both sides. -/
theorem negRows_eq (P : FVec Ideal Cert.ReferenceIdeal.S2048x256 .f32) (x1 : FVec Ideal Cert.ReferenceIdeal.S200000x256 .f32)
    (x3 : IVec Cert.ReferenceIdeal.S200000 32) (x4 : IVec Cert.ReferenceIdeal.S2048x127 32)
    (hP : Cert.ReferenceIdeal.Read.val_main_v5 (F := Ideal) x1 x3 = P) :
    Cert.ReferenceIdeal.Read.val_main_v13 (F := Ideal) x1 x3 x4 = Cert.KernelIdeal.KValue.negRows P x4 := by
  subst hP
  rfl

theorem algebraic : Cert.algebraic_KernelIdeal_ReferenceIdeal := by
  intro m ρ m' ρ' hpre hagree
  refine ⟨fun c => fun _ => Spec.loss (Cert.KernelIdeal.KValue.sumS m c) (Cert.KernelIdeal.KValue.sumP m c)
    (Cert.KernelIdeal.KValue.negRows (Cert.KernelIdeal.KValue.sumP m c)
      (m ((c.tc : Thread Cert.KernelIdeal.nD Cert.KernelIdeal.τ).loc Cert.KernelIdeal.main_arg4))), ?_, ?_⟩
  · refine (θ_run Cert.KernelIdeal.defs _ _).mono (fun _ h c => ⟨(h c).1.trans ?_, (h c).2⟩)
      (Cert.KernelIdeal.Run.run (F := Ideal) m ρ)
    obtain ⟨⟨xr0, hx0⟩, ⟨xr1, hx1⟩⟩ := Cert.Proof.Finite.reals_of_pre _ _ _ _ _ (hpre c)
    exact Cert.KernelIdeal.KValue.result_eq m ρ c xr0 xr1 hx0 hx1
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v40_eq]
    funext i
    rw [Cert.ReferenceIdeal.RefLoss.result_eq, Cert.ReferenceIdeal.ScatterLaw.v2_eq, Cert.ReferenceIdeal.ScatterLaw.v5_eq,
      negRows_eq _ _ _ _ (Cert.ReferenceIdeal.ScatterLaw.v5_eq _ _),
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
